-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x19x512x1024 : Shape := ⟨4, ![2, 19, 512, 1024]⟩
abbrev S19 : Shape := ⟨1, ![19]⟩
abbrev S2x512x1024 : Shape := ⟨3, ![2, 512, 1024]⟩
abbrev S_ : Shape := ⟨0, ![]⟩

class Facts : Prop where
  bcast_S_S2x19x512x1024 : S_.BroadcastsInDim S2x19x512x1024 (![] : Fin 0 → Fin S2x19x512x1024.rank)
  reducesTo_S2x19x512x1024_S_d0_1_2_3 : S2x19x512x1024.ReducesTo [0, 1, 2, 3] S_
  h_S_ : 0 < S_.numel
  bcast_S_S19 : S_.BroadcastsInDim S19 (![] : Fin 0 → Fin S19.rank)
  reducesTo_S19_S_d0 : S19.ReducesTo [0] S_

variable [Facts]

def fn {F : FTy → Type} [FloatOps F] (main_arg0 : FVec F S2x19x512x1024 .f32) (main_arg1 : FVec F S19 .f32) (main_arg2 : IVec S2x512x1024 32) : IVec S_ 1 :=
  let main_v0 : FVec F S2x19x512x1024 .f32 := Host.absf main_arg0
  let main_cst : FVec F S_ .f32 := constant S_ .f32 0x7F800000#32
  let main_v1 : FVec F S2x19x512x1024 .f32 := broadcastInDim S2x19x512x1024 ![] bcast_S_S2x19x512x1024 main_cst
  let main_v2 : IVec S2x19x512x1024 1 := cmpf .olt main_v0 main_v1
  let main_c : IVec S_ 1 := constantI S_ 1 1#1
  let main_v3 : IVec S_ 1 := (fun x v => Host.reduce IntOp.andi x v reducesTo_S2x19x512x1024_S_d0_1_2_3 h_S_) main_v2 main_c
  let main_v4 : FVec F S19 .f32 := Host.absf main_arg1
  let main_cst_0 : FVec F S_ .f32 := constant S_ .f32 0x7F800000#32
  let main_v5 : FVec F S19 .f32 := broadcastInDim S19 ![] bcast_S_S19 main_cst_0
  let main_v6 : IVec S19 1 := cmpf .olt main_v4 main_v5
  let main_c_1 : IVec S_ 1 := constantI S_ 1 1#1
  let main_v7 : IVec S_ 1 := (fun x v => Host.reduce IntOp.andi x v reducesTo_S19_S_d0 h_S_) main_v6 main_c_1
  let main_v8 : IVec S_ 1 := andi main_v3 main_v7
  main_v8
-- ==== Kernel.lean ====
abbrev S2x19x512x1024 : Shape := ⟨4, ![2, 19, 512, 1024]⟩
abbrev S19 : Shape := ⟨1, ![19]⟩
abbrev S2x512x1024 : Shape := ⟨3, ![2, 512, 1024]⟩
abbrev S32x1x19 : Shape := ⟨3, ![32, 1, 19]⟩
abbrev S32x1x1 : Shape := ⟨3, ![32, 1, 1]⟩
abbrev S2x19x16x1024 : Shape := ⟨4, ![2, 19, 16, 1024]⟩
abbrev S2x16x1024 : Shape := ⟨3, ![2, 16, 1024]⟩
abbrev S1x1x19 : Shape := ⟨3, ![1, 1, 19]⟩
abbrev S1x1x1 : Shape := ⟨3, ![1, 1, 1]⟩
abbrev S2x1x16x1024 : Shape := ⟨4, ![2, 1, 16, 1024]⟩
abbrev S1x19x1x1 : Shape := ⟨4, ![1, 19, 1, 1]⟩
abbrev S19x16x1024 : Shape := ⟨3, ![19, 16, 1024]⟩
abbrev S19x16 : Shape := ⟨2, ![19, 16]⟩
abbrev S16x1024 : Shape := ⟨2, ![16, 1024]⟩
abbrev S16 : Shape := ⟨1, ![16]⟩
abbrev S1x16 : Shape := ⟨2, ![1, 16]⟩
abbrev S1 : Shape := ⟨1, ![1]⟩
abbrev S1x1 : Shape := ⟨2, ![1, 1]⟩
abbrev S_ : Shape := ⟨0, ![]⟩

abbrev nBuf : Space → Nat
  | .hbm => 28
  | .vmem => 11
  | .smem => 0
  | _ => 0

abbrev bufTy : (tb : Table) → Fin (tcTables nBuf tb) → BufTy
  | .hbm, ⟨0, _⟩ => ⟨S2x19x512x1024, .f32⟩
  | .hbm, ⟨1, _⟩ => ⟨S19, .f32⟩
  | .hbm, ⟨2, _⟩ => ⟨S2x512x1024, .i32⟩
  | .hbm, ⟨3, _⟩ => ⟨S19, .f32⟩
  | .hbm, ⟨4, _⟩ => ⟨S2x19x512x1024, .f32⟩
  | .hbm, ⟨5, _⟩ => ⟨S32x1x19, .f32⟩
  | .hbm, ⟨6, _⟩ => ⟨S32x1x1, .f32⟩
  | .hbm, ⟨7, _⟩ => ⟨S_, .f32⟩
  | .hbm, ⟨8, _⟩ => ⟨S19, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S19, .f32⟩
  | .hbm, ⟨14, _⟩ => ⟨S19, .f32⟩
  | .hbm, ⟨15, _⟩ => ⟨S_, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S19, .f32⟩
  | .hbm, ⟨20, _⟩ => ⟨S19, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S2x19x16x1024, .f32⟩
  | .local _ .vmem, ⟨1, _⟩ => ⟨S2x19x16x1024, .f32⟩
  | .local _ .vmem, ⟨2, _⟩ => ⟨S19, .f32⟩
  | .local _ .vmem, ⟨3, _⟩ => ⟨S2x16x1024, .i32⟩
  | .local _ .vmem, ⟨4, _⟩ => ⟨S2x16x1024, .i32⟩
  | .local _ .vmem, ⟨5, _⟩ => ⟨S2x19x16x1024, .f32⟩
  | .local _ .vmem, ⟨6, _⟩ => ⟨S2x19x16x1024, .f32⟩
  | .local _ .vmem, ⟨7, _⟩ => ⟨S1x1x19, .f32⟩
  | .local _ .vmem, ⟨8, _⟩ => ⟨S1x1x19, .f32⟩
  | .local _ .vmem, ⟨9, _⟩ => ⟨S1x1x1, .f32⟩
  | .local _ .vmem, ⟨10, _⟩ => ⟨S1x1x1, .f32⟩
  | _, _ => ⟨S2x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x19x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x16x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x19x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x19x16x1024_S2x19x16x1024_0_0_0_0 : ∀ a, (![0, 0, 0, 0] : Fin 4 → Nat) a + S2x19x16x1024.size a ≤ S2x19x16x1024.size a
  h_S2x19x16x1024 : 0 < S2x19x16x1024.numel
  reduces_S2x19x16x1024_S2x16x1024 : S2x19x16x1024.Reduces [1] S2x16x1024
  shapeCasts_S2x16x1024_S2x1x16x1024 : S2x16x1024.ShapeCasts S2x1x16x1024
  broadcasts_S2x1x16x1024_S2x19x16x1024 : S2x1x16x1024.Broadcasts S2x19x16x1024
  inb_S19_S19_0 : ∀ a, (![0] : Fin 1 → Nat) a + S19.size a ≤ S19.size a
  h_S19 : 0 < S19.numel
  shapeCasts_S19_S1x19x1x1 : S19.ShapeCasts S1x19x1x1
  broadcasts_S1x19x1x1_S2x19x16x1024 : S1x19x1x1.Broadcasts S2x19x16x1024
  natLt_1_32 : 1 < 32
  reduces_S2x19x16x1024_S19x16x1024 : S2x19x16x1024.Reduces [0] S19x16x1024
  reduces_S19x16x1024_S19x16 : S19x16x1024.Reduces [2] S19x16
  reduces_S19x16_S19 : S19x16.Reduces [1] S19
  shapeCasts_S19_S1x1x19 : S19.ShapeCasts S1x1x19
  inb_S1x1x19_S1x1x19_0_0_0 : ∀ a, (![0, 0, 0] : Fin 3 → Nat) a + S1x1x19.size a ≤ S1x1x19.size a
  h_S1x1x19 : 0 < S1x1x19.numel
  inb_S2x16x1024_S2x16x1024_0_0_0 : ∀ a, (![0, 0, 0] : Fin 3 → Nat) a + S2x16x1024.size a ≤ S2x16x1024.size a
  h_S2x16x1024 : 0 < S2x16x1024.numel
  iota_S1x19x1x1_d1_w32 : S1x19x1x1.Iotas .tc 32 [1]
  reduces_S2x16x1024_S16x1024 : S2x16x1024.Reduces [0] S16x1024
  reduces_S16x1024_S16 : S16x1024.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  reducesTo_S32x1x19_S19_d0_1 : S32x1x19.ReducesTo [0, 1] S19
  h_S_ : 0 < S_.numel
  reducesTo_S32x1x1_S_d0_1_2 : S32x1x1.ReducesTo [0, 1, 2] S_
  reducesTo_S19_S_d0 : S19.ReducesTo [0] S_
  bcast_S_S19 : S_.BroadcastsInDim S19 (![] : Fin 0 → Fin S19.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x19x16x1024.size a ≤ S2x19x512x1024.size a
  hwx0_0 : ∀ i : grid0.Coords, EltTy.bits .f32 = 32 ∨ (Rect.block (s := S2x19x512x1024) S2x19x16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19.size a ≤ S19.size a
  hwx0_1 : ∀ i : grid0.Coords, EltTy.bits .f32 = 32 ∨ (Rect.block (s := S19) S19.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x1024.size a ≤ S2x512x1024.size a
  hwx0_2 : ∀ i : grid0.Coords, EltTy.bits .i32 = 32 ∨ (Rect.block (s := S2x512x1024) S2x16x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x19x16x1024.size a ≤ S2x19x512x1024.size a
  hwx0_3 : ∀ i : grid0.Coords, EltTy.bits .f32 = 32 ∨ (Rect.block (s := S2x19x512x1024) S2x19x16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x19.size a ≤ S32x1x19.size a
  hwx0_4 : ∀ i : grid0.Coords, EltTy.bits .f32 = 32 ∨ (Rect.block (s := S32x1x19) S1x1x19.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S32x1x1.size a
  hwx0_5 : ∀ i : grid0.Coords, EltTy.bits .f32 = 32 ∨ (Rect.block (s := S32x1x1) S1x1x1.size (cc0_transform_5 i) (hinb0_5 i)).WholeWords (EltTy.packing .f32)

variable [Facts₀]

abbrev win0_0 : Pipeline.Window sig grid0 :=
  Pipeline.Window.ofSpec (Memref.whole main_arg0) S2x19x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2x19x16x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x19.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x19x512x1024 : Shape := ⟨4, ![2, 19, 512, 1024]⟩
abbrev S19 : Shape := ⟨1, ![19]⟩
abbrev S2x512x1024 : Shape := ⟨3, ![2, 512, 1024]⟩
abbrev S_ : Shape := ⟨0, ![]⟩
abbrev S2x1x512x1024 : Shape := ⟨4, ![2, 1, 512, 1024]⟩
abbrev S1x19x1x1 : Shape := ⟨4, ![1, 19, 1, 1]⟩
abbrev S2x512x1024x1 : Shape := ⟨4, ![2, 512, 1024, 1]⟩
abbrev S1x1x1x19 : Shape := ⟨4, ![1, 1, 1, 19]⟩
abbrev S2x512x1024x19 : Shape := ⟨4, ![2, 512, 1024, 19]⟩

abbrev nBuf : Space → Nat
  | .hbm => 68
  | .vmem => 0
  | .smem => 0
  | _ => 0

abbrev bufTy : (tb : Table) → Fin (tcTables nBuf tb) → BufTy
  | .hbm, ⟨0, _⟩ => ⟨S2x19x512x1024, .f32⟩
  | .hbm, ⟨1, _⟩ => ⟨S19, .f32⟩
  | .hbm, ⟨2, _⟩ => ⟨S2x512x1024, .i32⟩
  | .hbm, ⟨3, _⟩ => ⟨S19, .f32⟩
  | .hbm, ⟨4, _⟩ => ⟨S_, .f32⟩
  | .hbm, ⟨5, _⟩ => ⟨S_, .f32⟩
  | .hbm, ⟨6, _⟩ => ⟨S19, .f32⟩
  | .hbm, ⟨7, _⟩ => ⟨S19, .f32⟩
  | .hbm, ⟨8, _⟩ => ⟨S_, .f32⟩
  | .hbm, ⟨9, _⟩ => ⟨S2x512x1024, .f32⟩
  | .hbm, ⟨10, _⟩ => ⟨S_, .f32⟩
  | .hbm, ⟨11, _⟩ => ⟨S2x512x1024, .f32⟩
  | .hbm, ⟨12, _⟩ => ⟨S2x512x1024, .f32⟩
  | .hbm, ⟨13, _⟩ => ⟨S2x1x512x1024, .f32⟩
  | .hbm, ⟨14, _⟩ => ⟨S2x19x512x1024, .f32⟩
  | .hbm, ⟨15, _⟩ => ⟨S2x19x512x1024, .f32⟩
  | .hbm, ⟨16, _⟩ => ⟨S2x19x512x1024, .f32⟩
  | .hbm, ⟨17, _⟩ => ⟨S_, .f32⟩
  | .hbm, ⟨18, _⟩ => ⟨S2x512x1024, .f32⟩
  | .hbm, ⟨19, _⟩ => ⟨S2x1x512x1024, .f32⟩
  | .hbm, ⟨20, _⟩ => ⟨S2x19x512x1024, .f32⟩
  | .hbm, ⟨21, _⟩ => ⟨S2x19x512x1024, .f32⟩
  | .hbm, ⟨22, _⟩ => ⟨S1x19x1x1, .f32⟩
  | .hbm, ⟨23, _⟩ => ⟨S2x19x512x1024, .f32⟩
  | .hbm, ⟨24, _⟩ => ⟨S2x19x512x1024, .f32⟩
  | .hbm, ⟨25, _⟩ => ⟨S_, .f32⟩
  | .hbm, ⟨26, _⟩ => ⟨S2x512x1024, .f32⟩
  | .hbm, ⟨27, _⟩ => ⟨S2x1x512x1024, .f32⟩
  | .hbm, ⟨28, _⟩ => ⟨S2x19x512x1024, .f32⟩
  | .hbm, ⟨29, _⟩ => ⟨S2x19x512x1024, .f32⟩
  | .hbm, ⟨30, _⟩ => ⟨S_, .f32⟩
  | .hbm, ⟨31, _⟩ => ⟨S2x19x512x1024, .f32⟩
  | .hbm, ⟨32, _⟩ => ⟨S2x19x512x1024, .i1⟩
  | .hbm, ⟨33, _⟩ => ⟨S2x19x512x1024, .f32⟩
  | .hbm, ⟨34, _⟩ => ⟨S_, .f32⟩
  | .hbm, ⟨35, _⟩ => ⟨S19, .f32⟩
  | .hbm, ⟨36, _⟩ => ⟨S_, .f32⟩
  | .hbm, ⟨37, _⟩ => ⟨S_, .f32⟩
  | .hbm, ⟨38, _⟩ => ⟨S19, .f32⟩
  | .hbm, ⟨39, _⟩ => ⟨S19, .f32⟩
  | .hbm, ⟨40, _⟩ => ⟨S19, .f32⟩
  | .hbm, ⟨41, _⟩ => ⟨S19, .f32⟩
  | .hbm, ⟨42, _⟩ => ⟨S_, .f32⟩
  | .hbm, ⟨43, _⟩ => ⟨S_, .f32⟩
  | .hbm, ⟨44, _⟩ => ⟨S2x512x1024x1, .i32⟩
  | .hbm, ⟨45, _⟩ => ⟨S1x1x1x19, .i32⟩
  | .hbm, ⟨46, _⟩ => ⟨S2x512x1024x19, .i32⟩
  | .hbm, ⟨47, _⟩ => ⟨S2x512x1024x19, .i32⟩
  | .hbm, ⟨48, _⟩ => ⟨S2x512x1024x19, .i1⟩
  | .hbm, ⟨49, _⟩ => ⟨S2x512x1024x19, .f32⟩
  | .hbm, ⟨50, _⟩ => ⟨S2x19x512x1024, .f32⟩
  | .hbm, ⟨51, _⟩ => ⟨S2x19x512x1024, .f32⟩
  | .hbm, ⟨52, _⟩ => ⟨S2x19x512x1024, .f32⟩
  | .hbm, ⟨53, _⟩ => ⟨S_, .f32⟩
  | .hbm, ⟨54, _⟩ => ⟨S2x512x1024, .f32⟩
  | .hbm, ⟨55, _⟩ => ⟨S_, .i32⟩
  | .hbm, ⟨56, _⟩ => ⟨S2x512x1024, .i32⟩
  | .hbm, ⟨57, _⟩ => ⟨S2x512x1024, .i1⟩
  | .hbm, ⟨58, _⟩ => ⟨S_, .f32⟩
  | .hbm, ⟨59, _⟩ => ⟨S2x512x1024, .f32⟩
  | .hbm, ⟨60, _⟩ => ⟨S2x512x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S2x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call1_v0 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  reducesTo_S19_S_d0 : S19.ReducesTo [0] S_
  h_S_ : 0 < S_.numel
  bcast_S_S19 : S_.BroadcastsInDim S19 (![] : Fin 0 → Fin S19.rank)
  reducesTo_S2x19x512x1024_S2x512x1024_d1 : S2x19x512x1024.ReducesTo [1] S2x512x1024
  bcast_S_S2x512x1024 : S_.BroadcastsInDim S2x512x1024 (![] : Fin 0 → Fin S2x512x1024.rank)
  bcast_S2x512x1024_S2x1x512x1024_0_2_3 : S2x512x1024.BroadcastsInDim S2x1x512x1024 (![0, 2, 3] : Fin 3 → Fin S2x1x512x1024.rank)
  bcast_S2x1x512x1024_S2x19x512x1024_0_1_2_3 : S2x1x512x1024.BroadcastsInDim S2x19x512x1024 (![0, 1, 2, 3] : Fin 4 → Fin S2x19x512x1024.rank)
  bcast_S19_S1x19x1x1_1 : S19.BroadcastsInDim S1x19x1x1 (![1] : Fin 1 → Fin S1x19x1x1.rank)
  bcast_S1x19x1x1_S2x19x512x1024_0_1_2_3 : S1x19x1x1.BroadcastsInDim S2x19x512x1024 (![0, 1, 2, 3] : Fin 4 → Fin S2x19x512x1024.rank)
  bcast_S_S2x19x512x1024 : S_.BroadcastsInDim S2x19x512x1024 (![] : Fin 0 → Fin S2x19x512x1024.rank)
  reducesTo_S2x19x512x1024_S19_d0_2_3 : S2x19x512x1024.ReducesTo [0, 2, 3] S19
  bcast_S2x512x1024_S2x512x1024x1_0_1_2 : S2x512x1024.BroadcastsInDim S2x512x1024x1 (![0, 1, 2] : Fin 3 → Fin S2x512x1024x1.rank)
  bcast_S2x512x1024x1_S2x512x1024x19_0_1_2_3 : S2x512x1024x1.BroadcastsInDim S2x512x1024x19 (![0, 1, 2, 3] : Fin 4 → Fin S2x512x1024x19.rank)
  bcast_S1x1x1x19_S2x512x1024x19_0_1_2_3 : S1x1x1x19.BroadcastsInDim S2x512x1024x19 (![0, 1, 2, 3] : Fin 4 → Fin S2x512x1024x19.rank)
  transposes_S2x512x1024x19_S2x19x512x1024_0_3_1_2 : S2x512x1024x19.Transposes [0, 3, 1, 2] S2x19x512x1024
  reducesTo_S2x512x1024_S_d0_1_2 : S2x512x1024.ReducesTo [0, 1, 2] S_

variable [Facts₀]

class Facts : Prop extends Facts₀ where

variable [Facts]
-- ==== Proof.Spec.lean ====
/-
  The mathematics both programs compute, stated once over the extended reals.

  A pixel (b, h, w) carries a column of 19 class scores.  The column's softmax (taken stably: the column's
  maximum is subtracted before exponentiating) is reweighted class by class and renormalised; that is the
  array result.  The scalar result adds two terms: the squared distance between the normalised per-class
  counts of confident pixels (value above the threshold) and the normalised prior, and one twentieth of the
  mean over all pixels of the squared distance to the label's one-hot column, a pixel labelled 255 counting
  zero.  Sums over pixels are written as iterated sums over (b, h, w); a tiled evaluation of the same sums
  (32 tiles of 16 rows) is related to them in the module of sums.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## One column of class scores -/

/-- The column's maximum, folded from minus infinity. -/
def colMax (col : Fin 19 → EReal) : EReal :=
  (Finset.univ : Finset (Fin 19)).fold max (Ideal.ofBits .f32 0xFF800000#32) col

/-- The shifted exponentials. -/
def ecol (col : Fin 19 → EReal) (k : Fin 19) : EReal := Ideal.exp (col k - colMax col)

/-- The softmax of the column. -/
def soft (col : Fin 19 → EReal) (k : Fin 19) : EReal := Ideal.div (ecol col k) (∑ j : Fin 19, ecol col j)

/-- The softmax reweighted per class. -/
def wsoft (col w : Fin 19 → EReal) (k : Fin 19) : EReal := w k * soft col k

/-- The reweighted softmax renormalised to sum one. -/
def wp (col w : Fin 19 → EReal) (k : Fin 19) : EReal := Ideal.div (wsoft col w k) (∑ j : Fin 19, wsoft col w j)

/-- One if the value exceeds the threshold word, else zero (the comparison's bit read as a number). -/
def above (v : EReal) : EReal := (((Ideal.cmp .ogt v (Ideal.ofBits .f32 0x3F666666#32)).toNat : ℝ) : EReal)

/-- The label's one-hot column: one at class k when the label word is k. -/
def onehot (lab : BitVec 32) (k : Fin 19) : EReal := (((IntOp.cmpi .eq lab (BitVec.ofNat 32 k.val)).toNat : ℝ) : EReal)

/-- The squared distance of the renormalised column to the label's one-hot column; zero at the ignored label 255. -/
def sqe (col w : Fin 19 → EReal) (lab : BitVec 32) : EReal :=
  Scalar.select (IntOp.cmpi .eq lab 255#32) (Ideal.ofBits .f32 0x00000000#32)
    (∑ k : Fin 19, (wp col w k - onehot lab k) * (wp col w k - onehot lab k))

/-! ## The arrays -/

/-- The column of pixel (b, h, w) of a [2, 19, H, 1024] array. -/
def colOf {H : Nat} (x : (⟨4, ![2, 19, H, 1024]⟩ : Shape).Idx → EReal) (b : Fin 2) (h : Fin H) (ww : Fin 1024) : Fin 19 → EReal :=
  fun k => x (ix4 b k h ww)

/-- The weight vector by class. -/
def wOf (w : (⟨1, ![19]⟩ : Shape).Idx → EReal) : Fin 19 → EReal := fun k => w (ix1 k)

/-- THE ARRAY RESULT: at (b, c, h, w) the renormalised weighted softmax of pixel (b, h, w)'s column at class c. -/
def WP {H : Nat} (x : (⟨4, ![2, 19, H, 1024]⟩ : Shape).Idx → EReal) (w : (⟨1, ![19]⟩ : Shape).Idx → EReal) :
    (⟨4, ![2, 19, H, 1024]⟩ : Shape).Idx → EReal :=
  fun i => wp (colOf x (i 0) (i 2) (i 3)) (wOf w) (i 1)

/-- Per class, how many pixels are confident. -/
def counts (x : (⟨4, ![2, 19, 512, 1024]⟩ : Shape).Idx → EReal) (w : (⟨1, ![19]⟩ : Shape).Idx → EReal) (c : Fin 19) : EReal :=
  ∑ b : Fin 2, ∑ h : Fin 512, ∑ ww : Fin 1024, above (WP x w (ix4 b c h ww))

/-- The summed squared error over all pixels. -/
def sse (x : (⟨4, ![2, 19, 512, 1024]⟩ : Shape).Idx → EReal) (w : (⟨1, ![19]⟩ : Shape).Idx → EReal)
    (lab : (⟨3, ![2, 512, 1024]⟩ : Shape).Idx → BitVec 32) : EReal :=
  ∑ b : Fin 2, ∑ h : Fin 512, ∑ ww : Fin 1024, sqe (colOf x b h ww) (wOf w) (lab (ix3 b h ww))

/-- Row hh of tile t (tiles of 16 rows). -/
def tileRow (t : Fin 32) (hh : Fin 16) : Fin 512 := ⟨16 * t.val + hh.val, by omega⟩

/-- Tile t's share of the confident-pixel count of class c, summed over rows, then lanes, then batch. -/
def pcount (x : (⟨4, ![2, 19, 512, 1024]⟩ : Shape).Idx → EReal) (w : (⟨1, ![19]⟩ : Shape).Idx → EReal) (t : Fin 32) (c : Fin 19) : EReal :=
  ∑ hh : Fin 16, ∑ ww : Fin 1024, ∑ b : Fin 2, above (WP x w (ix4 b c (tileRow t hh) ww))

/-- Tile t's share of the summed squared error. -/
def psse (x : (⟨4, ![2, 19, 512, 1024]⟩ : Shape).Idx → EReal) (w : (⟨1, ![19]⟩ : Shape).Idx → EReal)
    (lab : (⟨3, ![2, 512, 1024]⟩ : Shape).Idx → BitVec 32) (t : Fin 32) : EReal :=
  ∑ hh : Fin 16, ∑ ww : Fin 1024, ∑ b : Fin 2, sqe (colOf x b (tileRow t hh) ww) (wOf w) (lab (ix3 b (tileRow t hh) ww))

/-! ## The scalar result from the counts and the summed error

The closing host arithmetic, shared by both programs: the prior and the counts are each divided by their own
sum, the squared differences are summed, and one twentieth of the mean squared error is added. -/

/-- THE SCALAR RESULT as a function of the prior table, the per-class counts and the summed squared error. -/
def loss (prior size : FVec Ideal (⟨1, ![19]⟩ : Shape) .f32) (se : FVec Ideal (⟨0, ![]⟩ : Shape) .f32) :
    FVec Ideal (⟨0, ![]⟩ : Shape) .f32 :=
  let z : FVec Ideal (⟨0, ![]⟩ : Shape) .f32 := constant (F := Ideal) ⟨0, ![]⟩ .f32 0x00000000#32
  let psum := Host.reduceAdd (F := Ideal) (u := ⟨0, ![]⟩) prior z (by decide : (⟨1, ![19]⟩ : Shape).ReducesTo [0] ⟨0, ![]⟩) (by decide)
  let pr := Host.divf (F := Ideal) prior (broadcastInDim (⟨1, ![19]⟩ : Shape) ![] (by decide) psum)
  let ssum := Host.reduceAdd (F := Ideal) (u := ⟨0, ![]⟩) size z (by decide : (⟨1, ![19]⟩ : Shape).ReducesTo [0] ⟨0, ![]⟩) (by decide)
  let sr := Host.divf (F := Ideal) size (broadcastInDim (⟨1, ![19]⟩ : Shape) ![] (by decide) ssum)
  let d := subf sr pr
  let rl := Host.reduceAdd (F := Ideal) (u := ⟨0, ![]⟩) (mulf d d) z (by decide : (⟨1, ![19]⟩ : Shape).ReducesTo [0] ⟨0, ![]⟩) (by decide)
  let mse := Host.divf (F := Ideal) se (constant (F := Ideal) ⟨0, ![]⟩ .f32 0x49800000#32)
  addf rl (mulf (constant (F := Ideal) ⟨0, ![]⟩ .f32 0x3D4CCCCD#32) mse)

end Cert.Spec

end
-- ==== Proof.LibIdxSums.lean ====
/-
  Sums over the index sets of rank-3 and rank-4 arrays as iterated sums over their coordinates, and a sum over
  512 rows as a sum over 32 tiles of 16 rows.  General facts about finite sums in a commutative monoid; nothing
  here knows of a kernel.
-/
import Idealize.ShloMosaic.Lib.ValueIdx
import Mathlib.Algebra.BigOperators.Fin

namespace Cert.IdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row 16 t + k of 512 rows, for tile t of 32 and row k of 16: a bijection. -/
def tileEquiv : Fin 32 × Fin 16 ≃ Fin 512 where
  toFun p := ⟨16 * p.1.val + p.2.val, by have := p.1.isLt; have := p.2.isLt; omega⟩
  invFun h := (⟨h.val / 16, by have := h.isLt; omega⟩, ⟨h.val % 16, by omega⟩)
  left_inv p := by
    have h1 := p.1.isLt
    have h2 := p.2.isLt
    refine Prod.ext (Fin.ext ?_) (Fin.ext ?_)
    · show (16 * p.1.val + p.2.val) / 16 = p.1.val
      omega
    · show (16 * p.1.val + p.2.val) % 16 = p.2.val
      omega
  right_inv h := Fin.ext (by show 16 * (h.val / 16) + h.val % 16 = h.val; omega)

/-- A sum over 512 rows is the sum over the 32 tiles of the sums over each tile's 16 rows. -/
theorem sum_tiles {M : Type*} [AddCommMonoid M] (g : Fin 512 → M) :
    ∑ h, g h = ∑ t : Fin 32, ∑ k : Fin 16, g (tileEquiv (t, k)) := by
  rw [← Equiv.sum_comp tileEquiv g, Fintype.sum_prod_type]

end Cert.IdxSums
-- ==== Proof.Sums.lean ====
/-
  Sums over index sets, rearranged.  A host sum over several axes of an array is, at each kept index, a sum
  over the set of source indices that drop to it; here such sets are named by coordinates, so that the sum
  becomes an iterated sum over the dropped coordinates.  Then the tiled evaluation of the two pixel sums
  (32 tiles of 16 rows, each tile summed rows, then lanes, then batch) is shown to be the plain sum over
  all pixels: addition on the extended reals is commutative and associative, so no finiteness is needed.
-/
import proofs.«123292_j48180943127204_1_alg».proof.Proof.Spec
import proofs.«123292_j48180943127204_1_alg».proof.Proof.LibIdxSums
import Idealize.ShloMosaic.PureOps.Reduce
import Idealize.ShloMosaic.Lib.IdealHost

noncomputable section

namespace Cert.Sums

open Idealize.ShloMosaic Idealize.ShloMosaic.ValueIdx Cert.Spec Cert.IdxSums

/-- An index of the [2, 19, 512, 1024] array drops (axes 0, 2, 3 removed) to class c0 exactly when its class is c0. -/
theorem drop_keep1_iff (h : (⟨4, ![2, 19, 512, 1024]⟩ : Shape).ReducesTo [0, 2, 3] ⟨1, ![19]⟩)
    (a : Fin 2) (b : Fin 19) (c : Fin 512) (d : Fin 1024) (c0 : Fin 19) :
    h.drop (ix4 a b c d) = ix1 c0 ↔ b = c0 := by
  have hv : ((h.drop (ix4 a b c d) 0 : Fin _) : Nat) = b.val := h.drop_apply_val_of_eq (ix4 a b c d) 0 1
  constructor
  · intro e
    rw [e] at hv
    exact Fin.ext hv.symm
  · rintro rfl
    funext q
    match q with
    | ⟨0, _⟩ => exact Fin.ext hv

/-- A host sum of a [2, 19, 512, 1024] array over axes 0, 2, 3, at class j: the start value plus the iterated sum. -/
theorem reduce_keep1 (f : (⟨4, ![2, 19, 512, 1024]⟩ : Shape).Idx → EReal) (init : EReal)
    (h : (⟨4, ![2, 19, 512, 1024]⟩ : Shape).ReducesTo [0, 2, 3] ⟨1, ![19]⟩) (j : (⟨1, ![19]⟩ : Shape).Idx) :
    Ideal.hostReduceAdd h f init j = init + ∑ b : Fin 2, ∑ hh : Fin 512, ∑ ww : Fin 1024, f (ix4 b (j 0) hh ww) := by
  obtain ⟨c0, rfl⟩ : ∃ c0 : Fin 19, j = ix1 c0 := ⟨j 0, eq_ix1 j⟩
  unfold Ideal.hostReduceAdd
  refine congrArg (init + ·) ?_
  rw [Finset.sum_filter, sum_idx4]
  refine Finset.sum_congr rfl fun a _ => ?_
  have step : ∀ b : Fin 19, (∑ c : Fin 512, ∑ d : Fin 1024,
        if h.drop (ix4 a b c d) = ix1 c0 then f (ix4 a b c d) else 0)
      = if b = c0 then ∑ c : Fin 512, ∑ d : Fin 1024, f (ix4 a b c d) else 0 := by
    intro b
    by_cases hb : b = c0
    · rw [if_pos hb]
      refine Finset.sum_congr rfl fun c _ => Finset.sum_congr rfl fun d _ => ?_
      rw [if_pos ((drop_keep1_iff h a b c d c0).2 hb)]
    · rw [if_neg hb]
      refine Finset.sum_eq_zero fun c _ => Finset.sum_eq_zero fun d _ => ?_
      rw [if_neg (fun e => hb ((drop_keep1_iff h a b c d c0).1 e))]
  rw [Finset.sum_congr rfl fun b _ => step b, Finset.sum_ite_eq' Finset.univ c0, if_pos (Finset.mem_univ _)]

/-- A host sum of a [2, 512, 1024] array over every axis: the start value plus the iterated sum. -/
theorem reduce_all3 (f : (⟨3, ![2, 512, 1024]⟩ : Shape).Idx → EReal) (init : EReal)
    (h : (⟨3, ![2, 512, 1024]⟩ : Shape).ReducesTo [0, 1, 2] ⟨0, ![]⟩) (j : (⟨0, ![]⟩ : Shape).Idx) :
    Ideal.hostReduceAdd h f init j = init + ∑ b : Fin 2, ∑ hh : Fin 512, ∑ ww : Fin 1024, f (ix3 b hh ww) := by
  rw [Ideal.hostReduceAdd_total h (fun b => b.elim0) f init j, sum_idx3]

/-- An index of the [32, 1, 19] array of per-tile counts drops (axes 0, 1 removed) to class c0 exactly when its class is c0. -/
theorem drop_keep2_iff (h : (⟨3, ![32, 1, 19]⟩ : Shape).ReducesTo [0, 1] ⟨1, ![19]⟩)
    (t : Fin 32) (u : Fin 1) (c : Fin 19) (c0 : Fin 19) :
    h.drop (ix3 t u c) = ix1 c0 ↔ c = c0 := by
  have hv : ((h.drop (ix3 t u c) 0 : Fin _) : Nat) = c.val := h.drop_apply_val_of_eq (ix3 t u c) 0 2
  constructor
  · intro e
    rw [e] at hv
    exact Fin.ext hv.symm
  · rintro rfl
    funext q
    match q with
    | ⟨0, _⟩ => exact Fin.ext hv

/-- Tiles, rows, lanes, batch summed in the kernel's order: the sum over batch, all rows, lanes. -/
theorem sum_tiled {M : Type*} [AddCommMonoid M] (G : Fin 2 → Fin 512 → Fin 1024 → M) :
    ∑ t : Fin 32, ∑ hh : Fin 16, ∑ ww : Fin 1024, ∑ b : Fin 2, G b (tileRow t hh) ww
      = ∑ b : Fin 2, ∑ h : Fin 512, ∑ ww : Fin 1024, G b h ww := by
  have e1 : ∀ (t : Fin 32) (hh : Fin 16), (∑ ww : Fin 1024, ∑ b : Fin 2, G b (tileRow t hh) ww)
      = ∑ b : Fin 2, ∑ ww : Fin 1024, G b (tileRow t hh) ww := fun t hh => Finset.sum_comm
  have e2 : ∀ t : Fin 32, (∑ hh : Fin 16, ∑ b : Fin 2, ∑ ww : Fin 1024, G b (tileRow t hh) ww)
      = ∑ b : Fin 2, ∑ hh : Fin 16, ∑ ww : Fin 1024, G b (tileRow t hh) ww := fun t => Finset.sum_comm
  rw [Finset.sum_congr rfl fun t _ => Finset.sum_congr rfl fun hh _ => e1 t hh,
    Finset.sum_congr rfl fun t _ => e2 t, Finset.sum_comm]
  refine Finset.sum_congr rfl fun b _ => ?_
  rw [sum_tiles (fun h => ∑ ww : Fin 1024, G b h ww)]
  rfl

/-- The per-tile counts summed over the tiles are the counts. -/
theorem reduce_pcount (x : (⟨4, ![2, 19, 512, 1024]⟩ : Shape).Idx → EReal) (w : (⟨1, ![19]⟩ : Shape).Idx → EReal)
    (h : (⟨3, ![32, 1, 19]⟩ : Shape).ReducesTo [0, 1] ⟨1, ![19]⟩) (hu : 0 < (⟨0, ![]⟩ : Shape).numel) :
    Host.reduceAdd (F := Ideal) (φ := .f32) (u := ⟨0, ![]⟩) (fun i : (⟨3, ![32, 1, 19]⟩ : Shape).Idx => pcount x w (i 0) (i 2))
        (constant (F := Ideal) ⟨0, ![]⟩ .f32 0x00000000#32) h hu
      = fun j => counts x w (j 0) := by
  funext j
  obtain ⟨c0, rfl⟩ : ∃ c0 : Fin 19, j = ix1 c0 := ⟨j 0, eq_ix1 j⟩
  rw [hostReduceAdd_apply]
  unfold Ideal.hostReduceAdd
  rw [show constant (F := Ideal) ⟨0, ![]⟩ .f32 0x00000000#32 (Shape.Idx.first hu) = Ideal.ofBits .f32 0x00000000#32 from rfl,
    Ideal.ofBits_zero_f32, zero_add, Finset.sum_filter, sum_idx3]
  have step : ∀ (t : Fin 32) (u : Fin 1), (∑ c : Fin 19,
        if h.drop (ix3 t u c) = ix1 c0 then pcount x w t c else 0) = pcount x w t c0 := by
    intro t u
    rw [Finset.sum_congr rfl fun c _ => if_congr (drop_keep2_iff h t u c c0) rfl rfl,
      Finset.sum_ite_eq' Finset.univ c0, if_pos (Finset.mem_univ _)]
  have step1 : ∀ t : Fin 32, (∑ u : Fin 1, ∑ c : Fin 19,
        if h.drop (ix3 t u c) = ix1 c0 then pcount x w t c else 0) = pcount x w t c0 := by
    intro t
    rw [Fin.sum_univ_one]
    exact step t 0
  refine (Finset.sum_congr rfl fun t _ => step1 t).trans ?_
  exact sum_tiled (fun b hh ww => above (WP x w (ix4 b c0 hh ww)))

/-- The per-tile squared errors summed over the tiles are the summed squared error. -/
theorem reduce_psse (x : (⟨4, ![2, 19, 512, 1024]⟩ : Shape).Idx → EReal) (w : (⟨1, ![19]⟩ : Shape).Idx → EReal)
    (lab : (⟨3, ![2, 512, 1024]⟩ : Shape).Idx → BitVec 32)
    (h : (⟨3, ![32, 1, 1]⟩ : Shape).ReducesTo [0, 1, 2] ⟨0, ![]⟩) (hu : 0 < (⟨0, ![]⟩ : Shape).numel) :
    Host.reduceAdd (F := Ideal) (φ := .f32) (u := ⟨0, ![]⟩) (fun i : (⟨3, ![32, 1, 1]⟩ : Shape).Idx => psse x w lab (i 0))
        (constant (F := Ideal) ⟨0, ![]⟩ .f32 0x00000000#32) h hu
      = fun _ => sse x w lab := by
  funext j
  rw [hostReduceAdd_apply, Ideal.hostReduceAdd_total h (fun b => b.elim0),
    show constant (F := Ideal) ⟨0, ![]⟩ .f32 0x00000000#32 (Shape.Idx.first hu) = Ideal.ofBits .f32 0x00000000#32 from rfl,
    Ideal.ofBits_zero_f32, zero_add, sum_idx3]
  have step : ∀ t : Fin 32, (∑ u : Fin 1, ∑ v : Fin 1, psse x w lab t) = psse x w lab t := by
    intro t
    rw [Fin.sum_univ_one, Fin.sum_univ_one]
  refine (Finset.sum_congr rfl fun t _ => step t).trans ?_
  exact sum_tiled (fun b hh ww => sqe (colOf x b hh ww) (wOf w) (lab (ix3 b hh ww)))

end Cert.Sums

end
-- ==== Proof.RefTerm.lean ====
/-
  The reference's values as pure terms of its three arguments, generic in the float family: the host
  operations of its @main composed in the order the program runs them.  The renormalised weighted softmax
  (the array result), the per-class counts of confident pixels, the one-hot target laid out class-major,
  the summed squared error, the prior table, and the scalar result.
-/
import proofs.«123292_j48180943127204_1_alg».proof.ReferenceIdeal

noncomputable section

namespace Cert.ReferenceIdeal.Term

open Cert.ReferenceIdeal Idealize.ShloMosaic
open Facts₀ Facts

variable {F : FTy → Type} [FloatOps F] [Facts]

/-- The zero scalar every sum starts from. -/
def zeroS : FVec F S_ .f32 := constant S_ .f32 0x00000000#32
/-- Minus infinity, the maximum's start. -/
def ninfS : FVec F S_ .f32 := constant S_ .f32 0xFF800000#32

/-- A [2, 512, 1024] array repeated along a new class axis. -/
def overClasses (v : FVec F S2x512x1024 .f32) : FVec F S2x19x512x1024 .f32 :=
  broadcastInDim S2x19x512x1024 ![0, 1, 2, 3] bcast_S2x1x512x1024_S2x19x512x1024_0_1_2_3
    (broadcastInDim S2x1x512x1024 ![0, 2, 3] bcast_S2x512x1024_S2x1x512x1024_0_2_3 v)

/-- The softmax over the class axis. -/
def softT (x : FVec F S2x19x512x1024 .f32) : FVec F S2x19x512x1024 .f32 :=
  let v3 := Host.reduce FloatOps.maximumf x (ninfS (F := F)) reducesTo_S2x19x512x1024_S2x512x1024_d1 h_S_
  let v5 := maximumf (broadcastInDim S2x512x1024 ![] bcast_S_S2x512x1024 (ninfS (F := F))) v3
  let v9 := Host.exp (subf x (overClasses v5))
  let v10 := Host.reduceAdd v9 (zeroS (F := F)) reducesTo_S2x19x512x1024_S2x512x1024_d1 h_S_
  Host.divf v9 (overClasses v10)

/-- The array result: the softmax reweighted per class and renormalised. -/
def wpT (x : FVec F S2x19x512x1024 .f32) (w : FVec F S19 .f32) : FVec F S2x19x512x1024 .f32 :=
  let v15 := broadcastInDim S2x19x512x1024 ![0, 1, 2, 3] bcast_S1x19x1x1_S2x19x512x1024_0_1_2_3
    (broadcastInDim S1x19x1x1 ![1] bcast_S19_S1x19x1x1_1 w)
  let v16 := mulf v15 (softT x)
  let v17 := Host.reduceAdd v16 (zeroS (F := F)) reducesTo_S2x19x512x1024_S2x512x1024_d1 h_S_
  Host.divf v16 (overClasses v17)

/-- Per class, the number of pixels whose value exceeds the threshold. -/
def sizeT (x : FVec F S2x19x512x1024 .f32) (w : FVec F S19 .f32) : FVec F S19 .f32 :=
  let v21 := broadcastInDim S2x19x512x1024 ![] bcast_S_S2x19x512x1024 (constant (F := F) S_ .f32 0x3F666666#32)
  let v23 : FVec F S2x19x512x1024 .f32 := uitofp .f32 (cmpf .ogt (wpT x w) v21)
  Host.reduceAdd v23 (zeroS (F := F)) reducesTo_S2x19x512x1024_S19_d0_2_3 h_S_

/-- The one-hot target, class axis second. -/
def ohT (lab : IVec S2x512x1024 32) : FVec F S2x19x512x1024 .f32 :=
  let c2 := broadcastInDim S2x512x1024x19 ![0, 1, 2, 3] bcast_S2x512x1024x1_S2x512x1024x19_0_1_2_3
    (broadcastInDim S2x512x1024x1 ![0, 1, 2] bcast_S2x512x1024_S2x512x1024x1_0_1_2 lab)
  let c3 := broadcastInDim S2x512x1024x19 ![0, 1, 2, 3] bcast_S1x1x1x19_S2x512x1024x19_0_1_2_3 (iotaInDim S1x1x1x19 32 3)
  let c5 : FVec F S2x512x1024x19 .f32 := uitofp .f32 (cmpi .eq c2 c3)
  transpose S2x19x512x1024 [0, 3, 1, 2] c5 transposes_S2x512x1024x19_S2x19x512x1024_0_3_1_2

/-- The squared error summed over classes, zeroed where the label is 255, summed over all pixels. -/
def sseT (x : FVec F S2x19x512x1024 .f32) (w : FVec F S19 .f32) (lab : IVec S2x512x1024 32) : FVec F S_ .f32 :=
  let v33 := subf (wpT x w) (ohT (F := F) lab)
  let v35 := Host.reduceAdd (mulf v33 v33) (zeroS (F := F)) reducesTo_S2x19x512x1024_S2x512x1024_d1 h_S_
  let v37 := cmpi .eq lab (broadcastInDim S2x512x1024 ![] bcast_S_S2x512x1024 (constantI S_ 32 255#32))
  let v38 := select v37 (broadcastInDim S2x512x1024 ![] bcast_S_S2x512x1024 (zeroS (F := F))) v35
  Host.reduceAdd v38 (zeroS (F := F)) reducesTo_S2x512x1024_S_d0_1_2 h_S_

/-- The prior table. -/
def priorT : FVec F S19 .f32 := fun i => FloatOps.ofBits .f32 (lit0 (S19.rowMajor i))

/-- The closing arithmetic from the prior, the counts and the summed error. -/
def lossOf (prior size : FVec F S19 .f32) (se : FVec F S_ .f32) : FVec F S_ .f32 :=
  let v0 := Host.reduceAdd prior (zeroS (F := F)) reducesTo_S19_S_d0 h_S_
  let v2 := Host.divf prior (broadcastInDim S19 ![] bcast_S_S19 v0)
  let v25 := Host.reduceAdd size (zeroS (F := F)) reducesTo_S19_S_d0 h_S_
  let v27 := Host.divf size (broadcastInDim S19 ![] bcast_S_S19 v25)
  let v28 := subf v27 v2
  let v30 := Host.reduceAdd (mulf v28 v28) (zeroS (F := F)) reducesTo_S19_S_d0 h_S_
  let v40 := Host.divf se (constant (F := F) S_ .f32 0x49800000#32)
  addf v30 (mulf (constant (F := F) S_ .f32 0x3D4CCCCD#32) v40)

/-- The scalar result. -/
def lossT (x : FVec F S2x19x512x1024 .f32) (w : FVec F S19 .f32) (lab : IVec S2x512x1024 32) : FVec F S_ .f32 :=
  lossOf (priorT (F := F)) (sizeT x w) (sseT x w lab)

end Cert.ReferenceIdeal.Term

end
-- ==== Proof.RefRun.lean ====
/-
  The reference's run read back: its @main is a straight line of host operations (the two functions it calls
  written out where they are called), so every weakly fair execution terminates with each result buffer at
  the operations' composed term of the arguments, the arguments unchanged.
-/
import proofs.«123292_j48180943127204_1_alg».proof.Proof.RefTerm
import proofs.«123292_j48180943127204_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The reference's host operations in the order @main runs them: the prior table and its normalisation, the
    softmax over the class axis, its reweighting and renormalisation (the array result), the counts of confident
    pixels per class and the squared distance of their proportions from the prior, the one-hot target (the first
    called function's six operations, over that call's own buffers) laid out class-major, the squared error summed
    over classes and zeroed at the ignored label (the second called function's broadcast and select, over its
    call's buffers), its mean, and the closing sum. -/
abbrev ops : List (HloOp τ sig (Elt F)) :=
  [ StableHlo.nullary main_cst (fun i => FloatOps.ofBits .f32 (lit0 (S19.rowMajor i))),
    StableHlo.nullary main_cst_0 (constant S_ .f32 0x00000000#32),
    StableHlo.binary main_cst main_cst_0 main_v0 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    StableHlo.unary main_v0 main_v1 (broadcastInDim S19 ![] bcast_S_S19 : (⟨S_, .f32⟩ : BufTy).Contents (Elt F) → (⟨S19, .f32⟩ : BufTy).Contents (Elt F)),
    StableHlo.binary main_cst main_v1 main_v2 (Host.divf : (⟨S19, .f32⟩ : BufTy).Contents (Elt F) → (⟨S19, .f32⟩ : BufTy).Contents (Elt F) → (⟨S19, .f32⟩ : BufTy).Contents (Elt F)),
    StableHlo.nullary main_cst_1 (constant S_ .f32 0xFF800000#32),
    StableHlo.binary main_arg0 main_cst_1 main_v3 ((fun x v => Host.reduce FloatOps.maximumf x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    StableHlo.nullary main_cst_2 (constant S_ .f32 0xFF800000#32),
    StableHlo.unary main_cst_2 main_v4 (broadcastInDim S2x512x1024 ![] bcast_S_S2x512x1024 : (⟨S_, .f32⟩ : BufTy).Contents (Elt F) → (⟨S2x512x1024, .f32⟩ : BufTy).Contents (Elt F)),
    StableHlo.binary main_v4 main_v3 main_v5 (maximumf : (⟨S2x512x1024, .f32⟩ : BufTy).Contents (Elt F) → (⟨S2x512x1024, .f32⟩ : BufTy).Contents (Elt F) → (⟨S2x512x1024, .f32⟩ : BufTy).Contents (Elt F)),
    StableHlo.unary main_v5 main_v6 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    StableHlo.unary main_v6 main_v7 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    StableHlo.binary main_arg0 main_v7 main_v8 (subf : (⟨S2x19x512x1024, .f32⟩ : BufTy).Contents (Elt F) → (⟨S2x19x512x1024, .f32⟩ : BufTy).Contents (Elt F) → (⟨S2x19x512x1024, .f32⟩ : BufTy).Contents (Elt F)),
    StableHlo.unary main_v8 main_v9 (Host.exp : (⟨S2x19x512x1024, .f32⟩ : BufTy).Contents (Elt F) → (⟨S2x19x512x1024, .f32⟩ : BufTy).Contents (Elt F)),
    StableHlo.nullary main_cst_3 (constant S_ .f32 0x00000000#32),
    StableHlo.binary main_v9 main_cst_3 main_v10 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    StableHlo.unary main_v10 main_v11 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    StableHlo.unary main_v11 main_v12 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    StableHlo.binary main_v9 main_v12 main_v13 (Host.divf : (⟨S2x19x512x1024, .f32⟩ : BufTy).Contents (Elt F) → (⟨S2x19x512x1024, .f32⟩ : BufTy).Contents (Elt F) → (⟨S2x19x512x1024, .f32⟩ : BufTy).Contents (Elt F)),
    StableHlo.unary main_arg1 main_v14 (broadcastInDim S1x19x1x1 ![1] bcast_S19_S1x19x1x1_1 : (⟨S19, .f32⟩ : BufTy).Contents (Elt F) → (⟨S1x19x1x1, .f32⟩ : BufTy).Contents (Elt F)),
    StableHlo.unary main_v14 main_v15 (broadcastInDim S2x19x512x1024 ![0, 1, 2, 3] bcast_S1x19x1x1_S2x19x512x1024_0_1_2_3 : (⟨S1x19x1x1, .f32⟩ : BufTy).Contents (Elt F) → (⟨S2x19x512x1024, .f32⟩ : BufTy).Contents (Elt F)),
    StableHlo.binary main_v15 main_v13 main_v16 (mulf : (⟨S2x19x512x1024, .f32⟩ : BufTy).Contents (Elt F) → (⟨S2x19x512x1024, .f32⟩ : BufTy).Contents (Elt F) → (⟨S2x19x512x1024, .f32⟩ : BufTy).Contents (Elt F)),
    StableHlo.nullary main_cst_4 (constant S_ .f32 0x00000000#32),
    StableHlo.binary main_v16 main_cst_4 main_v17 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    StableHlo.unary main_v17 main_v18 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    StableHlo.unary main_v18 main_v19 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    StableHlo.binary main_v16 main_v19 main_v20 (Host.divf : (⟨S2x19x512x1024, .f32⟩ : BufTy).Contents (Elt F) → (⟨S2x19x512x1024, .f32⟩ : BufTy).Contents (Elt F) → (⟨S2x19x512x1024, .f32⟩ : BufTy).Contents (Elt F)),
    StableHlo.nullary main_cst_5 (constant S_ .f32 0x3F666666#32),
    StableHlo.unary main_cst_5 main_v21 (broadcastInDim S2x19x512x1024 ![] bcast_S_S2x19x512x1024 : (⟨S_, .f32⟩ : BufTy).Contents (Elt F) → (⟨S2x19x512x1024, .f32⟩ : BufTy).Contents (Elt F)),
    StableHlo.binary main_v20 main_v21 main_v22 (cmpf (F := F) .ogt : (⟨S2x19x512x1024, .f32⟩ : BufTy).Contents (Elt F) → (⟨S2x19x512x1024, .f32⟩ : BufTy).Contents (Elt F) → (⟨S2x19x512x1024, .i1⟩ : BufTy).Contents (Elt F)),
    StableHlo.unary main_v22 main_v23 (uitofp (F := F) .f32 : (⟨S2x19x512x1024, .i1⟩ : BufTy).Contents (Elt F) → (⟨S2x19x512x1024, .f32⟩ : BufTy).Contents (Elt F)),
    StableHlo.nullary main_cst_6 (constant S_ .f32 0x00000000#32),
    StableHlo.binary main_v23 main_cst_6 main_v24 ((fun x v => Host.reduceAdd x v reducesTo_S2x19x512x1024_S19_d0_2_3 h_S_) : (⟨S2x19x512x1024, .f32⟩ : BufTy).Contents (Elt F) → (⟨S_, .f32⟩ : BufTy).Contents (Elt F) → (⟨S19, .f32⟩ : BufTy).Contents (Elt F)),
    StableHlo.nullary main_cst_7 (constant S_ .f32 0x00000000#32),
    StableHlo.binary main_v24 main_cst_7 main_v25 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    StableHlo.unary main_v25 main_v26 (broadcastInDim S19 ![] bcast_S_S19 : (⟨S_, .f32⟩ : BufTy).Contents (Elt F) → (⟨S19, .f32⟩ : BufTy).Contents (Elt F)),
    StableHlo.binary main_v24 main_v26 main_v27 (Host.divf : (⟨S19, .f32⟩ : BufTy).Contents (Elt F) → (⟨S19, .f32⟩ : BufTy).Contents (Elt F) → (⟨S19, .f32⟩ : BufTy).Contents (Elt F)),
    StableHlo.binary main_v27 main_v2 main_v28 (subf : (⟨S19, .f32⟩ : BufTy).Contents (Elt F) → (⟨S19, .f32⟩ : BufTy).Contents (Elt F) → (⟨S19, .f32⟩ : BufTy).Contents (Elt F)),
    StableHlo.binary main_v28 main_v28 main_v29 (mulf : (⟨S19, .f32⟩ : BufTy).Contents (Elt F) → (⟨S19, .f32⟩ : BufTy).Contents (Elt F) → (⟨S19, .f32⟩ : BufTy).Contents (Elt F)),
    StableHlo.nullary main_cst_8 (constant S_ .f32 0x00000000#32),
    StableHlo.binary main_v29 main_cst_8 main_v30 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    TRef.unary (TRef.of main_arg2 : TRef sig ⟨S2x512x1024, .i32⟩) main_call0.v0 (broadcastInDim S2x512x1024x1 ![0, 1, 2] bcast_S2x512x1024_S2x512x1024x1_0_1_2),
    TRef.nullary main_call0.v1 (iotaInDim S1x1x1x19 32 3),
    TRef.unary main_call0.v0 main_call0.v2 (broadcastInDim S2x512x1024x19 ![0, 1, 2, 3] bcast_S2x512x1024x1_S2x512x1024x19_0_1_2_3),
    TRef.unary main_call0.v1 main_call0.v3 (broadcastInDim S2x512x1024x19 ![0, 1, 2, 3] bcast_S1x1x1x19_S2x512x1024x19_0_1_2_3),
    TRef.binary main_call0.v2 main_call0.v3 main_call0.v4 (cmpi .eq),
    TRef.unary main_call0.v4 main_call0.v5 (uitofp (F := F) .f32),
    StableHlo.unary main_v31 main_v32 ((transpose S2x19x512x1024 [0, 3, 1, 2] · transposes_S2x512x1024x19_S2x19x512x1024_0_3_1_2) : (⟨S2x512x1024x19, .f32⟩ : BufTy).Contents (Elt F) → (⟨S2x19x512x1024, .f32⟩ : BufTy).Contents (Elt F)),
    StableHlo.binary main_v20 main_v32 main_v33 (subf : (⟨S2x19x512x1024, .f32⟩ : BufTy).Contents (Elt F) → (⟨S2x19x512x1024, .f32⟩ : BufTy).Contents (Elt F) → (⟨S2x19x512x1024, .f32⟩ : BufTy).Contents (Elt F)),
    StableHlo.binary main_v33 main_v33 main_v34 (mulf : (⟨S2x19x512x1024, .f32⟩ : BufTy).Contents (Elt F) → (⟨S2x19x512x1024, .f32⟩ : BufTy).Contents (Elt F) → (⟨S2x19x512x1024, .f32⟩ : BufTy).Contents (Elt F)),
    StableHlo.nullary main_cst_9 (constant S_ .f32 0x00000000#32),
    StableHlo.binary main_v34 main_cst_9 main_v35 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    StableHlo.nullary main_c (constantI S_ 32 255#32),
    StableHlo.unary main_c main_v36 (broadcastInDim S2x512x1024 ![] bcast_S_S2x512x1024 : (⟨S_, .i32⟩ : BufTy).Contents (Elt F) → (⟨S2x512x1024, .i32⟩ : BufTy).Contents (Elt F)),
    StableHlo.binary main_arg2 main_v36 main_v37 (cmpi .eq : (⟨S2x512x1024, .i32⟩ : BufTy).Contents (Elt F) → (⟨S2x512x1024, .i32⟩ : BufTy).Contents (Elt F) → (⟨S2x512x1024, .i1⟩ : BufTy).Contents (Elt F)),
    StableHlo.nullary main_cst_10 (constant S_ .f32 0x00000000#32),
    TRef.unary (TRef.of main_cst_10 : TRef sig ⟨S_, .f32⟩) main_call1.v0 (broadcastInDim S2x512x1024 ![] bcast_S_S2x512x1024),
    TRef.ternary (TRef.of main_v37 : TRef sig ⟨S2x512x1024, .i1⟩) main_call1.v0 (TRef.of main_v35 : TRef sig ⟨S2x512x1024, .f32⟩) main_call1.v1 select,
    StableHlo.nullary main_cst_11 (constant S_ .f32 0x00000000#32),
    StableHlo.binary main_v38 main_cst_11 main_v39 ((fun x v => Host.reduceAdd x v reducesTo_S2x512x1024_S_d0_1_2 h_S_) : (⟨S2x512x1024, .f32⟩ : BufTy).Contents (Elt F) → (⟨S_, .f32⟩ : BufTy).Contents (Elt F) → (⟨S_, .f32⟩ : BufTy).Contents (Elt F)),
    StableHlo.nullary main_cst_12 (constant S_ .f32 0x49800000#32),
    StableHlo.binary main_v39 main_cst_12 main_v40 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x3D4CCCCD#32),
    StableHlo.binary main_cst_13 main_v40 main_v41 (mulf : (⟨S_, .f32⟩ : BufTy).Contents (Elt F) → (⟨S_, .f32⟩ : BufTy).Contents (Elt F) → (⟨S_, .f32⟩ : BufTy).Contents (Elt F)),
    StableHlo.binary main_v30 main_v41 main_v42 (addf : (⟨S_, .f32⟩ : BufTy).Contents (Elt F) → (⟨S_, .f32⟩ : BufTy).Contents (Elt F) → (⟨S_, .f32⟩ : BufTy).Contents (Elt F)) ]

set_option maxRecDepth 4096 in
/-- @main is that straight line: the two called functions opened at their calls and the call records at their
    fields, both sides are one chain of host steps once the sequencing is reassociated. -/
theorem main_eq (c : Dev nD) : main (F := F) c = seq ops := by
  simp only [main, fn_one_hot.body, fn_where.body, seq, bind_assoc, pure_bind]

/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., nullary_bufs_sub .., binary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., unary_bufs_sub .., binary_bufs_sub .., nullary_bufs_sub .., binary_bufs_sub ..,
    unary_bufs_sub .., unary_bufs_sub .., binary_bufs_sub .., nullary_bufs_sub .., unary_bufs_sub .., binary_bufs_sub ..,
    unary_bufs_sub .., nullary_bufs_sub .., binary_bufs_sub .., nullary_bufs_sub .., binary_bufs_sub .., unary_bufs_sub ..,
    binary_bufs_sub .., binary_bufs_sub .., binary_bufs_sub .., nullary_bufs_sub .., binary_bufs_sub .., unary_bufs_sub ..,
    nullary_bufs_sub .., unary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., nullary_bufs_sub .., unary_bufs_sub .., ternary_bufs_sub .., nullary_bufs_sub .., binary_bufs_sub ..,
    nullary_bufs_sub .., binary_bufs_sub .., nullary_bufs_sub .., binary_bufs_sub .., binary_bufs_sub ..⟩

/-- The array result's buffer after the line: the reweighted, renormalised softmax of the first two arguments. -/
theorem wp_eq (V : Valuation τ sig (Elt F)) :
    after ops V (Proc.devRef .tc main_v20)
      = Term.wpT (V (Proc.devRef .tc main_arg0)) (V (Proc.devRef .tc main_arg1)) := by
  after_results_simp
  rfl

/-- No operation of the line writes an argument's buffer. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp

/-- The scalar result's buffer after the line: the closing arithmetic over the prior table, the per-class counts
    and the summed squared error of the three arguments.  The two called functions' operations move contents
    between a buffer's own type and the tensor type their typed references carry; at these literal buffers the
    two types are the same and the transport is the identity. -/
theorem loss_eq (V : Valuation τ sig (Elt F)) :
    after ops V (Proc.devRef .tc main_v42)
      = Term.lossT (V (Proc.devRef .tc main_arg0)) (V (Proc.devRef .tc main_arg1)) (V (Proc.devRef .tc main_arg2)) := by
  after_results_simp <;> (try simp only [TRef.ofBuf, TRef.toBuf, cast_eq]) <;> rfl

/-- Every weakly fair execution of the reference terminates; the scalar result and the array result are the
    composed terms of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = Term.lossT (m ((c.tc : Thread nD τ).loc main_arg0)) (m ((c.tc : Thread nD τ).loc main_arg1)) (m ((c.tc : Thread nD τ).loc main_arg2))
      ∧ r.2.mem ((c.tc : Thread nD τ).loc main_v20)
          = Term.wpT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (loss_eq _), (h c main_v20).trans (wp_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.Run

end
-- ==== Proof.RefValue.lean ====
/-
  The reference's terms at the ideal values are the specification: read index by index, the softmax chain is
  the column formula, the count is the iterated sum of the indicator, the squared error the iterated sum of
  the per-pixel squared distance, and the closing arithmetic is the shared one.
-/
import proofs.«123292_j48180943127204_1_alg».proof.Proof.RefTerm
import proofs.«123292_j48180943127204_1_alg».proof.Proof.Gen.ReferenceIdeal
import proofs.«123292_j48180943127204_1_alg».proof.Proof.Spec
import proofs.«123292_j48180943127204_1_alg».proof.Proof.Sums
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx

/-! ## The three non-pointwise operations of the softmax chain, read at a pixel -/

/-- A pixel array repeated along the class axis reads the pixel's entry at every class. -/
theorem overClasses_apply (v : FVec Ideal S2x512x1024 .f32) (b : Fin 2) (c : Fin 19) (h : Fin 512) (ww : Fin 1024) :
    Term.overClasses (F := Ideal) v (ix4 b c h ww) = v (ix3 b h ww) := by
  unfold Term.overClasses
  refine (broadcastInDim_apply _ _ _ (ix4 b c h ww) (ix4 b (0 : Fin 1) h ww) ?_).trans ?_
  · intro a
    match a with
    | ⟨0, _⟩ => rfl
    | ⟨1, _⟩ => rfl
    | ⟨2, _⟩ => rfl
    | ⟨3, _⟩ => rfl
  · refine broadcastInDim_apply _ _ _ (ix4 b (0 : Fin 1) h ww) (ix3 b h ww) ?_
    intro a
    match a with
    | ⟨0, _⟩ => rfl
    | ⟨1, _⟩ => rfl
    | ⟨2, _⟩ => rfl

/-- The index of pixel (b, h, w) with class k inserted on the class axis is (b, k, h, w). -/
theorem lift_eq (hr : S2x19x512x1024.Reduces [1] S2x512x1024) (b : Fin 2) (h : Fin 512) (ww : Fin 1024) (k : Fin 19) :
    hr.lift (ix3 b h ww) k = ix4 b k h ww := by
  funext a
  refine Fin.ext ?_
  match a with
  | ⟨0, _⟩ => rfl
  | ⟨1, _⟩ => rfl
  | ⟨2, _⟩ => rfl
  | ⟨3, _⟩ => rfl

/-- The maximum over the class axis at a pixel is the maximum of the pixel's column. -/
theorem maxClasses_apply (x : FVec Ideal S2x19x512x1024 .f32) (b : Fin 2) (h : Fin 512) (ww : Fin 1024) :
    Host.reduce FloatOps.maximumf x (Term.ninfS (F := Ideal)) Facts₀.reducesTo_S2x19x512x1024_S2x512x1024_d1 Facts₀.h_S_ (ix3 b h ww)
      = Spec.colMax (Spec.colOf x b h ww) := by
  have hr : S2x19x512x1024.Reduces [1] S2x512x1024 := by decide
  refine (Host.reduce_eq_fold_single FloatOps.maximumf x _ _ hr _ (ix3 b h ww)).trans ?_
  have e : (x ∘ hr.lift (ix3 b h ww)) = Spec.colOf x b h ww := by
    funext k
    exact congrArg x (lift_eq hr b h ww k)
  rw [e]
  rfl

/-- The sum over the class axis at a pixel, from the zero start value, is the sum of the pixel's column. -/
theorem sumClasses_apply (y : FVec Ideal S2x19x512x1024 .f32) (b : Fin 2) (h : Fin 512) (ww : Fin 1024) :
    Host.reduceAdd y (Term.zeroS (F := Ideal)) Facts₀.reducesTo_S2x19x512x1024_S2x512x1024_d1 Facts₀.h_S_ (ix3 b h ww)
      = ∑ k : Fin 19, y (ix4 b k h ww) := by
  have hr : S2x19x512x1024.Reduces [1] S2x512x1024 := by decide
  rw [hostReduceAdd_apply, Ideal.hostReduceAdd_single _ hr]
  have z : Term.zeroS (F := Ideal) (Shape.Idx.first Facts₀.h_S_) = 0 := Ideal.ofBits_zero_f32
  rw [z, zero_add]
  show ∑ k : Fin 19, y (hr.lift (ix3 b h ww) k) = _
  exact Finset.sum_congr rfl (fun k _ => congrArg y (lift_eq hr b h ww k))

/-! ## The softmax chain at a pixel -/

/-- The word of minus infinity is the bottom of the extended reals. -/
theorem ninf_eq_bot : Ideal.ofBits .f32 0xFF800000#32 = (⊥ : EReal) := by
  simp [Ideal.ofBits, Ideal.ieee]

/-- The host's exponential at an index is the exponential of the element. -/
theorem hostExp_apply {s : Shape} {φ : FTy} (a : FVec Ideal s φ) (i : s.Idx) : Host.exp a i = Ideal.exp (a i) := rfl

/-- The class-axis maximum as the reference takes it: the reduction, then once more the maximum against minus infinity. -/
def mx (x : FVec Ideal S2x19x512x1024 .f32) : FVec Ideal S2x512x1024 .f32 :=
  maximumf (broadcastInDim S2x512x1024 ![] Facts₀.bcast_S_S2x512x1024 (Term.ninfS (F := Ideal)))
    (Host.reduce FloatOps.maximumf x (Term.ninfS (F := Ideal)) Facts₀.reducesTo_S2x19x512x1024_S2x512x1024_d1 Facts₀.h_S_)

/-- The exponentials of the scores shifted by their pixel's maximum. -/
def ex (x : FVec Ideal S2x19x512x1024 .f32) : FVec Ideal S2x19x512x1024 .f32 :=
  Host.exp (subf x (Term.overClasses (mx x)))

/-- The softmax is the shifted exponentials over their class-axis sum. -/
theorem softT_def (x : FVec Ideal S2x19x512x1024 .f32) :
    Term.softT (F := Ideal) x
      = Host.divf (ex x) (Term.overClasses (Host.reduceAdd (ex x) (Term.zeroS (F := Ideal))
          Facts₀.reducesTo_S2x19x512x1024_S2x512x1024_d1 Facts₀.h_S_)) := rfl

/-- The extra maximum against minus infinity changes nothing: at a pixel it is the column's maximum. -/
theorem mx_apply (x : FVec Ideal S2x19x512x1024 .f32) (b : Fin 2) (h : Fin 512) (ww : Fin 1024) :
    mx x (ix3 b h ww) = Spec.colMax (Spec.colOf x b h ww) := by
  unfold mx
  rw [maximumf_apply, broadcastInDim_scalar_apply, maxClasses_apply]
  unfold Term.ninfS
  rw [constant_apply, ninf_eq_bot]
  exact max_eq_right bot_le

/-- The shifted exponential at (b, c, h, w) is the column's at class c. -/
theorem ex_apply (x : FVec Ideal S2x19x512x1024 .f32) (b : Fin 2) (c : Fin 19) (h : Fin 512) (ww : Fin 1024) :
    ex x (ix4 b c h ww) = Spec.ecol (Spec.colOf x b h ww) c := by
  unfold ex
  rw [hostExp_apply, subf_apply, overClasses_apply, mx_apply]
  rfl

/-- The softmax over the class axis at (b, c, h, w) is the softmax of the pixel's column at class c. -/
theorem softT_apply (x : FVec Ideal S2x19x512x1024 .f32) (b : Fin 2) (c : Fin 19) (h : Fin 512) (ww : Fin 1024) :
    Term.softT (F := Ideal) x (ix4 b c h ww) = Spec.soft (Spec.colOf x b h ww) c := by
  rw [softT_def, hostDivf_apply, overClasses_apply, sumClasses_apply, ex_apply]
  unfold Spec.soft
  exact congrArg (Ideal.div _) (Finset.sum_congr rfl fun k _ => ex_apply x b k h ww)

/-! ## The reweighting and the renormalisation -/

/-- The weight vector laid along the class axis reads the class's weight. -/
theorem weights_apply (w : FVec Ideal S19 .f32) (b : Fin 2) (c : Fin 19) (h : Fin 512) (ww : Fin 1024) :
    broadcastInDim S2x19x512x1024 ![0, 1, 2, 3] Facts₀.bcast_S1x19x1x1_S2x19x512x1024_0_1_2_3
      (broadcastInDim S1x19x1x1 ![1] Facts₀.bcast_S19_S1x19x1x1_1 w) (ix4 b c h ww) = w (ix1 c) := by
  refine (broadcastInDim_apply _ _ _ (ix4 b c h ww) (ix4 (0 : Fin 1) c (0 : Fin 1) (0 : Fin 1)) ?_).trans ?_
  · intro a
    match a with
    | ⟨0, _⟩ => rfl
    | ⟨1, _⟩ => rfl
    | ⟨2, _⟩ => rfl
    | ⟨3, _⟩ => rfl
  · refine broadcastInDim_apply _ _ _ (ix4 (0 : Fin 1) c (0 : Fin 1) (0 : Fin 1)) (ix1 c) ?_
    intro a
    match a with
    | ⟨0, _⟩ => rfl

/-- The softmax reweighted class by class. -/
def ws (x : FVec Ideal S2x19x512x1024 .f32) (w : FVec Ideal S19 .f32) : FVec Ideal S2x19x512x1024 .f32 :=
  mulf (broadcastInDim S2x19x512x1024 ![0, 1, 2, 3] Facts₀.bcast_S1x19x1x1_S2x19x512x1024_0_1_2_3
    (broadcastInDim S1x19x1x1 ![1] Facts₀.bcast_S19_S1x19x1x1_1 w)) (Term.softT (F := Ideal) x)

/-- The array result is the reweighted softmax over its class-axis sum. -/
theorem wpT_def (x : FVec Ideal S2x19x512x1024 .f32) (w : FVec Ideal S19 .f32) :
    Term.wpT (F := Ideal) x w
      = Host.divf (ws x w) (Term.overClasses (Host.reduceAdd (ws x w) (Term.zeroS (F := Ideal))
          Facts₀.reducesTo_S2x19x512x1024_S2x512x1024_d1 Facts₀.h_S_)) := rfl

/-- The reweighted softmax at (b, c, h, w). -/
theorem ws_apply (x : FVec Ideal S2x19x512x1024 .f32) (w : FVec Ideal S19 .f32) (b : Fin 2) (c : Fin 19) (h : Fin 512) (ww : Fin 1024) :
    ws x w (ix4 b c h ww) = Spec.wsoft (Spec.colOf x b h ww) (Spec.wOf w) c := by
  unfold ws
  rw [mulf_apply, weights_apply, softT_apply]
  rfl

/-- The array result at (b, c, h, w) is the renormalised weighted softmax of the pixel's column at class c. -/
theorem wpT_apply (x : FVec Ideal S2x19x512x1024 .f32) (w : FVec Ideal S19 .f32) (b : Fin 2) (c : Fin 19) (h : Fin 512) (ww : Fin 1024) :
    Term.wpT (F := Ideal) x w (ix4 b c h ww) = Spec.wp (Spec.colOf x b h ww) (Spec.wOf w) c := by
  rw [wpT_def, hostDivf_apply, overClasses_apply, sumClasses_apply, ws_apply]
  unfold Spec.wp
  exact congrArg (Ideal.div _) (Finset.sum_congr rfl fun k _ => ws_apply x w b k h ww)

/-- The array result is the renormalised weighted softmax. -/
theorem wpT_eq (x : FVec Ideal S2x19x512x1024 .f32) (w : FVec Ideal S19 .f32) :
    Term.wpT (F := Ideal) x w = Spec.WP x w := by
  funext i
  obtain ⟨b, c, h, ww, rfl⟩ : ∃ (b : Fin 2) (c : Fin 19) (h : Fin 512) (ww : Fin 1024), i = ix4 b c h ww :=
    ⟨i 0, i 1, i 2, i 3, eq_ix4 i⟩
  exact wpT_apply x w b c h ww

/-! ## The counts of confident pixels -/

/-- An unsigned-integer-to-float conversion at an index is the element's number. -/
theorem uitofp_apply {s : Shape} {φ : FTy} {n : Nat} (v : IVec s n) (i : s.Idx) :
    (uitofp φ v : FVec Ideal s φ) i = (((v i).toNat : ℝ) : EReal) := rfl

/-- An integer comparison at an index compares the elements. -/
theorem cmpi_apply {s : Shape} {n : Nat} (p : CmpIPredicate) (u v : IVec s n) (i : s.Idx) :
    cmpi p u v i = IntOp.cmpi p (u i) (v i) := rfl

/-- The indicator of a value above the threshold, as the reference spells it. -/
def conf (x : FVec Ideal S2x19x512x1024 .f32) (w : FVec Ideal S19 .f32) : FVec Ideal S2x19x512x1024 .f32 :=
  uitofp .f32 (cmpf .ogt (Term.wpT (F := Ideal) x w)
    (broadcastInDim S2x19x512x1024 ![] Facts₀.bcast_S_S2x19x512x1024 (constant (F := Ideal) S_ .f32 0x3F666666#32)))

/-- The counts are the sum of the indicator over batch, rows and lanes. -/
theorem sizeT_def (x : FVec Ideal S2x19x512x1024 .f32) (w : FVec Ideal S19 .f32) :
    Term.sizeT (F := Ideal) x w
      = Host.reduceAdd (conf x w) (Term.zeroS (F := Ideal)) Facts₀.reducesTo_S2x19x512x1024_S19_d0_2_3 Facts₀.h_S_ := rfl

/-- The indicator at (b, c, h, w). -/
theorem conf_apply (x : FVec Ideal S2x19x512x1024 .f32) (w : FVec Ideal S19 .f32) (b : Fin 2) (c : Fin 19) (h : Fin 512) (ww : Fin 1024) :
    conf x w (ix4 b c h ww) = Spec.above (Spec.WP x w (ix4 b c h ww)) := by
  unfold conf
  rw [uitofp_apply, cmpf_apply, broadcastInDim_scalar_apply, constant_apply, wpT_eq]
  rfl

/-- The counts. -/
theorem sizeT_eq (x : FVec Ideal S2x19x512x1024 .f32) (w : FVec Ideal S19 .f32) :
    Term.sizeT (F := Ideal) x w = fun j => Spec.counts x w (j 0) := by
  rw [sizeT_def]
  funext j
  rw [hostReduceAdd_apply, Sums.reduce_keep1]
  unfold Term.zeroS
  rw [constant_apply, Ideal.ofBits_zero_f32, zero_add]
  unfold Spec.counts
  exact Finset.sum_congr rfl fun b _ => Finset.sum_congr rfl fun hh _ => Finset.sum_congr rfl fun ww _ =>
    conf_apply x w b (j 0) hh ww

/-! ## The summed squared error -/

/-- The labels repeated along a trailing class axis. -/
def lab4 (lab : IVec S2x512x1024 32) : IVec S2x512x1024x19 32 :=
  broadcastInDim S2x512x1024x19 ![0, 1, 2, 3] Facts₀.bcast_S2x512x1024x1_S2x512x1024x19_0_1_2_3
    (broadcastInDim S2x512x1024x1 ![0, 1, 2] Facts₀.bcast_S2x512x1024_S2x512x1024x1_0_1_2 lab)

/-- The class numbers along the trailing axis, repeated over the pixels. -/
def cls4 : IVec S2x512x1024x19 32 :=
  broadcastInDim S2x512x1024x19 ![0, 1, 2, 3] Facts₀.bcast_S1x1x1x19_S2x512x1024x19_0_1_2_3 (iotaInDim S1x1x1x19 32 3)

/-- The one-hot target is the comparison of label and class number, the class axis moved to second place. -/
theorem ohT_def (lab : IVec S2x512x1024 32) :
    Term.ohT (F := Ideal) lab
      = transpose S2x19x512x1024 [0, 3, 1, 2] (uitofp .f32 (cmpi .eq (lab4 lab) cls4) : FVec Ideal S2x512x1024x19 .f32)
          Facts₀.transposes_S2x512x1024x19_S2x19x512x1024_0_3_1_2 := rfl

/-- The repeated labels at (b, h, w, c) are the pixel's label. -/
theorem lab4_apply (lab : IVec S2x512x1024 32) (b : Fin 2) (h : Fin 512) (ww : Fin 1024) (c : Fin 19) :
    lab4 lab (ix4 b h ww c) = lab (ix3 b h ww) := by
  unfold lab4
  refine (broadcastInDim_apply _ _ _ (ix4 b h ww c) (ix4 b h ww (0 : Fin 1)) ?_).trans ?_
  · intro a
    match a with
    | ⟨0, _⟩ => rfl
    | ⟨1, _⟩ => rfl
    | ⟨2, _⟩ => rfl
    | ⟨3, _⟩ => rfl
  · refine broadcastInDim_apply _ _ _ (ix4 b h ww (0 : Fin 1)) (ix3 b h ww) ?_
    intro a
    match a with
    | ⟨0, _⟩ => rfl
    | ⟨1, _⟩ => rfl
    | ⟨2, _⟩ => rfl

/-- The class numbers at (b, h, w, c) are the word of c. -/
theorem cls4_apply (b : Fin 2) (h : Fin 512) (ww : Fin 1024) (c : Fin 19) :
    cls4 (ix4 b h ww c) = BitVec.ofNat 32 c.val := by
  unfold cls4
  refine (broadcastInDim_apply _ _ _ (ix4 b h ww c) (ix4 (0 : Fin 1) (0 : Fin 1) (0 : Fin 1) c) ?_).trans ?_
  · intro a
    match a with
    | ⟨0, _⟩ => rfl
    | ⟨1, _⟩ => rfl
    | ⟨2, _⟩ => rfl
    | ⟨3, _⟩ => rfl
  · rfl

/-- The one-hot target at (b, c, h, w) is the one-hot column of the pixel's label at class c. -/
theorem ohT_apply (lab : IVec S2x512x1024 32) (b : Fin 2) (c : Fin 19) (h : Fin 512) (ww : Fin 1024) :
    Term.ohT (F := Ideal) lab (ix4 b c h ww) = Spec.onehot (lab (ix3 b h ww)) c := by
  rw [ohT_def]
  refine (transpose_apply _ _ _ (ix4 b c h ww) (ix4 b h ww c) ?_).trans ?_
  · intro a
    match a with
    | ⟨0, _⟩ => rfl
    | ⟨1, _⟩ => rfl
    | ⟨2, _⟩ => rfl
    | ⟨3, _⟩ => rfl
  · rw [uitofp_apply, cmpi_apply, lab4_apply, cls4_apply]
    rfl

/-- The squared differences between the array result and the one-hot target. -/
def sq (x : FVec Ideal S2x19x512x1024 .f32) (w : FVec Ideal S19 .f32) (lab : IVec S2x512x1024 32) : FVec Ideal S2x19x512x1024 .f32 :=
  mulf (subf (Term.wpT (F := Ideal) x w) (Term.ohT (F := Ideal) lab)) (subf (Term.wpT (F := Ideal) x w) (Term.ohT (F := Ideal) lab))

/-- The per-pixel squared error: the class-axis sum of the squared differences, zero where the label is 255. -/
def px (x : FVec Ideal S2x19x512x1024 .f32) (w : FVec Ideal S19 .f32) (lab : IVec S2x512x1024 32) : FVec Ideal S2x512x1024 .f32 :=
  select (cmpi .eq lab (broadcastInDim S2x512x1024 ![] Facts₀.bcast_S_S2x512x1024 (constantI S_ 32 255#32)))
    (broadcastInDim S2x512x1024 ![] Facts₀.bcast_S_S2x512x1024 (Term.zeroS (F := Ideal)))
    (Host.reduceAdd (sq x w lab) (Term.zeroS (F := Ideal)) Facts₀.reducesTo_S2x19x512x1024_S2x512x1024_d1 Facts₀.h_S_)

/-- The summed squared error is the sum of the per-pixel squared error over all pixels. -/
theorem sseT_def (x : FVec Ideal S2x19x512x1024 .f32) (w : FVec Ideal S19 .f32) (lab : IVec S2x512x1024 32) :
    Term.sseT (F := Ideal) x w lab
      = Host.reduceAdd (px x w lab) (Term.zeroS (F := Ideal)) Facts₀.reducesTo_S2x512x1024_S_d0_1_2 Facts₀.h_S_ := rfl

/-- The squared difference at (b, c, h, w). -/
theorem sq_apply (x : FVec Ideal S2x19x512x1024 .f32) (w : FVec Ideal S19 .f32) (lab : IVec S2x512x1024 32)
    (b : Fin 2) (c : Fin 19) (h : Fin 512) (ww : Fin 1024) :
    sq x w lab (ix4 b c h ww)
      = (Spec.wp (Spec.colOf x b h ww) (Spec.wOf w) c - Spec.onehot (lab (ix3 b h ww)) c)
        * (Spec.wp (Spec.colOf x b h ww) (Spec.wOf w) c - Spec.onehot (lab (ix3 b h ww)) c) := by
  unfold sq
  rw [mulf_apply, subf_apply, wpT_apply, ohT_apply]

/-- The per-pixel squared error at (b, h, w). -/
theorem px_apply (x : FVec Ideal S2x19x512x1024 .f32) (w : FVec Ideal S19 .f32) (lab : IVec S2x512x1024 32)
    (b : Fin 2) (h : Fin 512) (ww : Fin 1024) :
    px x w lab (ix3 b h ww) = Spec.sqe (Spec.colOf x b h ww) (Spec.wOf w) (lab (ix3 b h ww)) := by
  unfold px
  rw [select_apply, cmpi_apply, broadcastInDim_scalar_apply, broadcastInDim_scalar_apply, sumClasses_apply,
    Finset.sum_congr rfl fun k _ => sq_apply x w lab b k h ww]
  rfl

/-- The summed squared error. -/
theorem sseT_eq (x : FVec Ideal S2x19x512x1024 .f32) (w : FVec Ideal S19 .f32) (lab : IVec S2x512x1024 32) :
    Term.sseT (F := Ideal) x w lab = fun _ => Spec.sse x w lab := by
  rw [sseT_def]
  funext j
  rw [hostReduceAdd_apply, Sums.reduce_all3]
  unfold Term.zeroS
  rw [constant_apply, Ideal.ofBits_zero_f32, zero_add]
  unfold Spec.sse
  exact Finset.sum_congr rfl fun b _ => Finset.sum_congr rfl fun hh _ => Finset.sum_congr rfl fun ww _ =>
    px_apply x w lab b hh ww

/-- The closing arithmetic is the shared one. -/
theorem lossOf_eq (prior size : FVec Ideal S19 .f32) (se : FVec Ideal S_ .f32) :
    Term.lossOf (F := Ideal) prior size se = Spec.loss prior size se := by
  rfl

end Cert.ReferenceIdeal.RefValue

end
-- ==== Proof.KerPay.lean ====
/-
  The kernel body's arithmetic at the ideal values, read at an index: what the body stores into each of its
  three output blocks, as the specification's formulas of the loaded blocks.
-/
import proofs.«123292_j48180943127204_1_alg».proof.Proof.Gen.KernelIdeal.Skeleton
import proofs.«123292_j48180943127204_1_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The source index over a reduced index, by coordinates -/

theorem lift_cls (h : S2x19x16x1024.Reduces [1] S2x16x1024) (b : Fin 2) (hh : Fin 16) (ww : Fin 1024) (k : Fin 19) :
    h.lift (ix3 b hh ww) k = ix4 b k hh ww := by
  funext a; apply Fin.ext
  match a with
  | ⟨0, _⟩ => rfl
  | ⟨1, _⟩ => rfl
  | ⟨2, _⟩ => rfl
  | ⟨3, _⟩ => rfl

/-- A column sum: at a pixel, the sum over the 19 classes. -/
theorem sum_cls (src : FVec Ideal S2x19x16x1024 .f32) (h : S2x19x16x1024.Reduces [1] S2x16x1024) (hφ : FKind.Formats .f32)
    (hacc : (0x00000000#32 : BitVec 32) = FKind.add.neutral .f32 hφ) (b : Fin 2) (hh : Fin 16) (ww : Fin 1024) :
    multiReduction .add [1] S2x16x1024 src 0x00000000#32 h hφ hacc (ix3 b hh ww) = ∑ k : Fin 19, src (ix4 b k hh ww) :=
  (Ideal.multiReduction_add_single src 0x00000000#32 h hφ hacc (ix3 b hh ww)).trans
    (Finset.sum_congr rfl fun k _ => congrArg src (lift_cls h b hh ww k))

theorem max_cls (src : FVec Ideal S2x19x16x1024 .f32) (h : S2x19x16x1024.Reduces [1] S2x16x1024) (hφ : FKind.Formats .f32)
    (hacc : (0xFF800000#32 : BitVec 32) = FKind.maximumf.neutral .f32 hφ) (b : Fin 2) (hh : Fin 16) (ww : Fin 1024) :
    multiReduction .maximumf [1] S2x16x1024 src 0xFF800000#32 h hφ hacc (ix3 b hh ww)
      = Spec.colMax (fun k => src (ix4 b k hh ww)) := by
  refine (Ideal.multiReduction_maximumf_single src 0xFF800000#32 h hφ hacc (ix3 b hh ww)).trans ?_
  unfold Spec.colMax
  exact congrArg (fun f => (Finset.univ : Finset (Fin 19)).fold max (Ideal.ofBits .f32 0xFF800000#32) f)
    (funext fun k => congrArg src (lift_cls h b hh ww k))

section Layout
variable {α : Type}

/-- A per-pixel value given a unit class axis and broadcast along the classes reads, at (b, c, h, w), the value at (b, h, w). -/
theorem keep_apply (v : S2x16x1024.Idx → α) (h1 : S2x16x1024.ShapeCasts S2x1x16x1024)
    (h2 : S2x1x16x1024.Broadcasts S2x19x16x1024) (b : Fin 2) (c : Fin 19) (hh : Fin 16) (ww : Fin 1024) :
    broadcastTo S2x19x16x1024 (shapeCast S2x1x16x1024 v h1) h2 (ix4 b c hh ww) = v (ix3 b hh ww) := by
  refine (broadcastTo_apply (shapeCast S2x1x16x1024 v h1) h2 (ix4 b c hh ww) (ix4 b (0 : Fin 1) hh ww) fun a => ?_).trans ?_
  · match a with
    | ⟨0, _⟩ => rfl
    | ⟨1, _⟩ => rfl
    | ⟨2, _⟩ => rfl
    | ⟨3, _⟩ => rfl
  · refine shapeCast_apply v h1 (ix4 b (0 : Fin 1) hh ww) (ix3 b hh ww) ?_
    rw [Shape.rowMajor_val_four, Shape.rowMajor_val_three]
    show (b.val * 16 + hh.val) * 1024 + ww.val = ((b.val * 1 + 0) * 16 + hh.val) * 1024 + ww.val
    omega

/-- A per-class value given unit batch, row and lane axes and broadcast over the block reads, at (b, c, h, w), the value at c. -/
theorem cls_apply (v : S19.Idx → α) (h1 : S19.ShapeCasts S1x19x1x1)
    (h2 : S1x19x1x1.Broadcasts S2x19x16x1024) (b : Fin 2) (c : Fin 19) (hh : Fin 16) (ww : Fin 1024) :
    broadcastTo S2x19x16x1024 (shapeCast S1x19x1x1 v h1) h2 (ix4 b c hh ww) = v (ix1 c) := by
  refine (broadcastTo_apply (shapeCast S1x19x1x1 v h1) h2 (ix4 b c hh ww) (ix4 (0 : Fin 1) c (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply v h1 (ix4 (0 : Fin 1) c (0 : Fin 1) (0 : Fin 1)) (ix1 c) ?_
    rw [Shape.rowMajor_val_four, Shape.rowMajor_val_one]
    show c.val = ((0 * 19 + c.val) * 1 + 0) * 1 + 0
    omega

/-- The class number along the class axis, broadcast over the block, reads the class's number. -/
theorem clsIota_apply (hi : S1x19x1x1.Iotas .tc 32 [1]) (h2 : S1x19x1x1.Broadcasts S2x19x16x1024)
    (b : Fin 2) (c : Fin 19) (hh : Fin 16) (ww : Fin 1024) :
    broadcastTo S2x19x16x1024 (iota .tc S1x19x1x1 32 [1] hi) h2 (ix4 b c hh ww) = BitVec.ofNat 32 c.val := by
  refine (broadcastTo_apply (iota .tc S1x19x1x1 32 [1] hi) h2 (ix4 b c hh ww) (ix4 (0 : Fin 1) c (0 : Fin 1) (0 : Fin 1)) fun a => ?_).trans ?_
  · match a with
    | ⟨0, _⟩ => rfl
    | ⟨1, _⟩ => rfl
    | ⟨2, _⟩ => rfl
    | ⟨3, _⟩ => rfl
  · exact iota_single_apply .tc S1x19x1x1 32 1 hi (ix4 (0 : Fin 1) c (0 : Fin 1) (0 : Fin 1))

/-- A per-class vector stored as a [1, 1, 19] block reads, at (0, 0, c), the value at c. -/
theorem row19_apply (v : S19.Idx → α) (h : S19.ShapeCasts S1x1x19) (c : Fin 19) :
    shapeCast S1x1x19 v h (ix3 (0 : Fin 1) (0 : Fin 1) c) = v (ix1 c) := by
  refine shapeCast_apply v h (ix3 (0 : Fin 1) (0 : Fin 1) c) (ix1 c) ?_
  rw [Shape.rowMajor_val_three, Shape.rowMajor_val_one]
  show c.val = (0 * 1 + 0) * 19 + c.val
  omega

/-- The one entry of a [1, 1] vector taken at position (0, 0). -/
theorem extract11_apply (v : S1x1.Idx → α) (h : ∀ a, (![0, 0] : Fin 2 → Nat) a < S1x1.size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

end Layout

/-! ## The other one-axis sums -/

theorem lift_batch4 (h : S2x19x16x1024.Reduces [0] S19x16x1024) (c : Fin 19) (hh : Fin 16) (ww : Fin 1024) (b : Fin 2) :
    h.lift (ix3 c hh ww) b = ix4 b c hh ww := by
  funext a; apply Fin.ext
  match a with
  | ⟨0, _⟩ => rfl
  | ⟨1, _⟩ => rfl
  | ⟨2, _⟩ => rfl
  | ⟨3, _⟩ => rfl

/-- The sum over the batch of a [2, 19, 16, 1024] block. -/
theorem sum_batch4 (src : FVec Ideal S2x19x16x1024 .f32) (h : S2x19x16x1024.Reduces [0] S19x16x1024) (hφ : FKind.Formats .f32)
    (hacc : (0x00000000#32 : BitVec 32) = FKind.add.neutral .f32 hφ) (c : Fin 19) (hh : Fin 16) (ww : Fin 1024) :
    multiReduction .add [0] S19x16x1024 src 0x00000000#32 h hφ hacc (ix3 c hh ww) = ∑ b : Fin 2, src (ix4 b c hh ww) :=
  (Ideal.multiReduction_add_single src 0x00000000#32 h hφ hacc (ix3 c hh ww)).trans
    (Finset.sum_congr rfl fun b _ => congrArg src (lift_batch4 h c hh ww b))

theorem lift_lane3 (h : S19x16x1024.Reduces [2] S19x16) (c : Fin 19) (hh : Fin 16) (ww : Fin 1024) :
    h.lift (ix2 c hh) ww = ix3 c hh ww := by
  funext a; apply Fin.ext
  match a with
  | ⟨0, _⟩ => rfl
  | ⟨1, _⟩ => rfl
  | ⟨2, _⟩ => rfl

/-- The sum over the lanes of a [19, 16, 1024] vector. -/
theorem sum_lane3 (src : FVec Ideal S19x16x1024 .f32) (h : S19x16x1024.Reduces [2] S19x16) (hφ : FKind.Formats .f32)
    (hacc : (0x00000000#32 : BitVec 32) = FKind.add.neutral .f32 hφ) (c : Fin 19) (hh : Fin 16) :
    multiReduction .add [2] S19x16 src 0x00000000#32 h hφ hacc (ix2 c hh) = ∑ ww : Fin 1024, src (ix3 c hh ww) :=
  (Ideal.multiReduction_add_single src 0x00000000#32 h hφ hacc (ix2 c hh)).trans
    (Finset.sum_congr rfl fun ww _ => congrArg src (lift_lane3 h c hh ww))

theorem lift_row2 (h : S19x16.Reduces [1] S19) (c : Fin 19) (hh : Fin 16) :
    h.lift (ix1 c) hh = ix2 c hh := by
  funext a; apply Fin.ext
  match a with
  | ⟨0, _⟩ => rfl
  | ⟨1, _⟩ => rfl

/-- The sum over the rows of a [19, 16] vector. -/
theorem sum_row2 (src : FVec Ideal S19x16 .f32) (h : S19x16.Reduces [1] S19) (hφ : FKind.Formats .f32)
    (hacc : (0x00000000#32 : BitVec 32) = FKind.add.neutral .f32 hφ) (c : Fin 19) :
    multiReduction .add [1] S19 src 0x00000000#32 h hφ hacc (ix1 c) = ∑ hh : Fin 16, src (ix2 c hh) :=
  (Ideal.multiReduction_add_single src 0x00000000#32 h hφ hacc (ix1 c)).trans
    (Finset.sum_congr rfl fun hh _ => congrArg src (lift_row2 h c hh))

theorem lift_batch3 (h : S2x16x1024.Reduces [0] S16x1024) (hh : Fin 16) (ww : Fin 1024) (b : Fin 2) :
    h.lift (ix2 hh ww) b = ix3 b hh ww := by
  funext a; apply Fin.ext
  match a with
  | ⟨0, _⟩ => rfl
  | ⟨1, _⟩ => rfl
  | ⟨2, _⟩ => rfl

/-- The sum over the batch of a [2, 16, 1024] vector. -/
theorem sum_batch3 (src : FVec Ideal S2x16x1024 .f32) (h : S2x16x1024.Reduces [0] S16x1024) (hφ : FKind.Formats .f32)
    (hacc : (0x00000000#32 : BitVec 32) = FKind.add.neutral .f32 hφ) (hh : Fin 16) (ww : Fin 1024) :
    multiReduction .add [0] S16x1024 src 0x00000000#32 h hφ hacc (ix2 hh ww) = ∑ b : Fin 2, src (ix3 b hh ww) :=
  (Ideal.multiReduction_add_single src 0x00000000#32 h hφ hacc (ix2 hh ww)).trans
    (Finset.sum_congr rfl fun b _ => congrArg src (lift_batch3 h hh ww b))

theorem lift_lane2 (h : S16x1024.Reduces [1] S16) (hh : Fin 16) (ww : Fin 1024) :
    h.lift (ix1 hh) ww = ix2 hh ww := by
  funext a; apply Fin.ext
  match a with
  | ⟨0, _⟩ => rfl
  | ⟨1, _⟩ => rfl

/-- The sum over the lanes of a [16, 1024] vector. -/
theorem sum_lane2 (src : FVec Ideal S16x1024 .f32) (h : S16x1024.Reduces [1] S16) (hφ : FKind.Formats .f32)
    (hacc : (0x00000000#32 : BitVec 32) = FKind.add.neutral .f32 hφ) (hh : Fin 16) :
    multiReduction .add [1] S16 src 0x00000000#32 h hφ hacc (ix1 hh) = ∑ ww : Fin 1024, src (ix2 hh ww) :=
  (Ideal.multiReduction_add_single src 0x00000000#32 h hφ hacc (ix1 hh)).trans
    (Finset.sum_congr rfl fun ww _ => congrArg src (lift_lane2 h hh ww))

theorem lift_row1 (h : S1x16.Reduces [1] S1) (u : Fin 1) (hh : Fin 16) :
    h.lift (ix1 u) hh = ix2 u hh := by
  funext a; apply Fin.ext
  match a with
  | ⟨0, _⟩ => rfl
  | ⟨1, _⟩ => rfl

/-- The sum over the sixteen entries of a [1, 16] vector. -/
theorem sum_row1 (src : FVec Ideal S1x16 .f32) (h : S1x16.Reduces [1] S1) (hφ : FKind.Formats .f32)
    (hacc : (0x00000000#32 : BitVec 32) = FKind.add.neutral .f32 hφ) (u : Fin 1) :
    multiReduction .add [1] S1 src 0x00000000#32 h hφ hacc (ix1 u) = ∑ hh : Fin 16, src (ix2 u hh) :=
  (Ideal.multiReduction_add_single src 0x00000000#32 h hφ hacc (ix1 u)).trans
    (Finset.sum_congr rfl fun hh _ => congrArg src (lift_row1 h u hh))

/-! ## A one-bit word read as a number -/

/-- Widened to 32 bits and read signed, a one-bit word is the number of its bit. -/
theorem bit_toInt (bit : BitVec 1) : (((bit.setWidth 32).toInt : ℝ) : EReal) = ((bit.toNat : ℝ) : EReal) := by
  rcases BitVec.eq_zero_or_eq_one bit with h | h <;> subst h <;> simp

/-! ## The body's arithmetic as a composition of four stages -/

/-- A per-pixel value spread along the classes. -/
def spread (v : FVec Ideal S2x16x1024 .f32) : FVec Ideal S2x19x16x1024 .f32 :=
  broadcastTo S2x19x16x1024 (shapeCast S2x1x16x1024 v shapeCasts_S2x16x1024_S2x1x16x1024) broadcasts_S2x1x16x1024_S2x19x16x1024

/-- Each pixel's column divided by its sum over the classes. -/
def normalise (x : FVec Ideal S2x19x16x1024 .f32) : FVec Ideal S2x19x16x1024 .f32 :=
  divf x (spread (multiReduction .add [1] S2x16x1024 x 0x00000000#32 reduces_S2x19x16x1024_S2x16x1024 (.inl rfl) rfl))

/-- Each pixel's column shifted by its maximum and exponentiated. -/
def shiftExp (x : FVec Ideal S2x19x16x1024 .f32) : FVec Ideal S2x19x16x1024 .f32 :=
  exp (subf x (spread (multiReduction .maximumf [1] S2x16x1024 x 0xFF800000#32 reduces_S2x19x16x1024_S2x16x1024 (.inl rfl) rfl)))

/-- The class weights spread over the block. -/
def weights (w : FVec Ideal S19 .f32) : FVec Ideal S2x19x16x1024 .f32 :=
  broadcastTo S2x19x16x1024 (shapeCast S1x19x1x1 w shapeCasts_S19_S1x19x1x1) broadcasts_S1x19x1x1_S2x19x16x1024

/-- The first payload is: shift and exponentiate, normalise, weight, normalise. -/
theorem pay2_stages (v0 : Vec Ideal S2x19x16x1024 .f32) (v10 : Vec Ideal S19 .f32) :
    k0_pay2 (F := Ideal) v0 v10 = normalise (mulf (weights v10) (normalise (shiftExp v0))) := rfl

theorem spread_apply (v : FVec Ideal S2x16x1024 .f32) (b : Fin 2) (c : Fin 19) (hh : Fin 16) (ww : Fin 1024) :
    spread v (ix4 b c hh ww) = v (ix3 b hh ww) :=
  keep_apply v _ _ b c hh ww

theorem normalise_apply (x : FVec Ideal S2x19x16x1024 .f32) (b : Fin 2) (c : Fin 19) (hh : Fin 16) (ww : Fin 1024) :
    normalise x (ix4 b c hh ww) = Ideal.div (x (ix4 b c hh ww)) (∑ k : Fin 19, x (ix4 b k hh ww)) := by
  unfold normalise
  exact congrArg (Ideal.div (x (ix4 b c hh ww))) ((spread_apply _ b c hh ww).trans (sum_cls x _ _ _ b hh ww))

theorem shiftExp_apply (x : FVec Ideal S2x19x16x1024 .f32) (b : Fin 2) (c : Fin 19) (hh : Fin 16) (ww : Fin 1024) :
    shiftExp x (ix4 b c hh ww) = Spec.ecol (fun k => x (ix4 b k hh ww)) c := by
  unfold shiftExp Spec.ecol
  exact congrArg (fun m => Ideal.exp (x (ix4 b c hh ww) - m)) ((spread_apply _ b c hh ww).trans (max_cls x _ _ _ b hh ww))

theorem weights_apply (w : FVec Ideal S19 .f32) (b : Fin 2) (c : Fin 19) (hh : Fin 16) (ww : Fin 1024) :
    weights w (ix4 b c hh ww) = w (ix1 c) :=
  cls_apply w _ _ b c hh ww

/-- The first payload at (b, c, h, w): the renormalised weighted softmax of the pixel's column at class c. -/
theorem pay2_apply (v0 : Vec Ideal S2x19x16x1024 .f32) (v10 : Vec Ideal S19 .f32) (b : Fin 2) (c : Fin 19) (hh : Fin 16) (ww : Fin 1024) :
    k0_pay2 (F := Ideal) v0 v10 (ix4 b c hh ww) = Spec.wp (Spec.colOf v0 b hh ww) (Spec.wOf v10) c := by
  have hs : ∀ k : Fin 19, normalise (shiftExp v0) (ix4 b k hh ww) = Spec.soft (Spec.colOf v0 b hh ww) k := fun k => by
    rw [normalise_apply, shiftExp_apply]
    unfold Spec.soft
    exact congrArg (Ideal.div _) (Finset.sum_congr rfl fun j _ => shiftExp_apply v0 b j hh ww)
  have hw : ∀ k : Fin 19, mulf (weights v10) (normalise (shiftExp v0)) (ix4 b k hh ww)
      = Spec.wsoft (Spec.colOf v0 b hh ww) (Spec.wOf v10) k := fun k => by
    rw [mulf_apply, weights_apply, hs k]
    rfl
  rw [pay2_stages, normalise_apply, hw c]
  unfold Spec.wp
  exact congrArg (Ideal.div _) (Finset.sum_congr rfl fun j _ => hw j)

/-- The block stored to the first output is the renormalised weighted softmax of the loaded block. -/
theorem pay2_eq (v0 : Vec Ideal S2x19x16x1024 .f32) (v10 : Vec Ideal S19 .f32) :
    k0_pay2 (F := Ideal) v0 v10 = Spec.WP v0 v10 := by
  funext j
  obtain ⟨b, c, hh, ww, rfl⟩ : ∃ (b : Fin 2) (c : Fin 19) (hh : Fin 16) (ww : Fin 1024), j = ix4 b c hh ww :=
    ⟨j 0, j 1, j 2, j 3, eq_ix4 j⟩
  exact pay2_apply v0 v10 b c hh ww

/-- The block stored to the second output holds, per class, the tile's count of confident pixels,
    summed rows, then lanes, then batch. -/
theorem pay3_apply (v0 : Vec Ideal S2x19x16x1024 .f32) (v10 : Vec Ideal S19 .f32) (c : Fin 19) :
    k0_pay3 (F := Ideal) v0 v10 (ix3 (0 : Fin 1) (0 : Fin 1) c)
      = ∑ hh : Fin 16, ∑ ww : Fin 1024, ∑ b : Fin 2, Spec.above (Spec.WP v0 v10 (ix4 b c hh ww)) := by
  unfold k0_pay3
  refine (row19_apply _ _ c).trans ?_
  refine (sum_row2 _ _ _ _ c).trans ?_
  refine Finset.sum_congr rfl fun hh _ => ?_
  refine (sum_lane3 _ _ _ _ c hh).trans ?_
  refine Finset.sum_congr rfl fun ww _ => ?_
  refine (sum_batch4 _ _ _ _ c hh ww).trans ?_
  refine Finset.sum_congr rfl fun b _ => ?_
  rw [← pay2_eq v0 v10]
  exact bit_toInt _

/-- The label comparison's payload at (b, k, h, w): the bit "the pixel's label is k", widened to 32 bits. -/
theorem pay4_apply (v28 : Vec Ideal S2x16x1024 .i32) (b : Fin 2) (k : Fin 19) (hh : Fin 16) (ww : Fin 1024) :
    k0_pay4 (F := Ideal) v28 (ix4 b k hh ww)
      = (IntOp.cmpi .eq (v28 (ix3 b hh ww)) (BitVec.ofNat 32 k.val)).setWidth 32 := by
  unfold k0_pay4
  exact congrArg₂ (fun x y => (IntOp.cmpi .eq x y).setWidth 32) (keep_apply v28 _ _ b k hh ww) (clsIota_apply _ _ b k hh ww)

/-- The block stored to the third output holds the tile's summed squared error. -/
theorem pay1_apply (v0 : Vec Ideal S2x19x16x1024 .f32) (v10 : Vec Ideal S19 .f32) (v28 : Vec Ideal S2x16x1024 .i32) :
    k0_pay1 (F := Ideal) (k0_pay2 (F := Ideal) v0 v10) v28 (k0_pay4 (F := Ideal) v28) (ix3 (0 : Fin 1) (0 : Fin 1) (0 : Fin 1))
      = ∑ hh : Fin 16, ∑ ww : Fin 1024, ∑ b : Fin 2,
          Spec.sqe (Spec.colOf v0 b hh ww) (Spec.wOf v10) (v28 (ix3 b hh ww)) := by
  unfold k0_pay1
  refine (extract11_apply _ _).trans ?_
  refine (shapeCast_a_1a_apply _ _ (0 : Fin 1) (0 : Fin 1)).trans ?_
  refine (sum_row1 _ _ _ _ (0 : Fin 1)).trans ?_
  refine Finset.sum_congr rfl fun hh _ => ?_
  refine (shapeCast_a_1a_apply _ _ (0 : Fin 1) hh).trans ?_
  refine (sum_lane2 _ _ _ _ hh).trans ?_
  refine Finset.sum_congr rfl fun ww _ => ?_
  refine (sum_batch3 _ _ _ _ hh ww).trans ?_
  refine Finset.sum_congr rfl fun b _ => ?_
  unfold Spec.sqe
  refine congrArg (Scalar.select (IntOp.cmpi .eq (v28 (ix3 b hh ww)) 255#32) (Ideal.ofBits .f32 0x00000000#32)) ?_
  refine (sum_cls _ _ _ _ b hh ww).trans ?_
  refine Finset.sum_congr rfl fun k _ => ?_
  have hd : k0_pay2 (F := Ideal) v0 v10 (ix4 b k hh ww) - (((k0_pay4 (F := Ideal) v28 (ix4 b k hh ww)).toInt : ℝ) : EReal)
      = Spec.wp (Spec.colOf v0 b hh ww) (Spec.wOf v10) k - Spec.onehot (v28 (ix3 b hh ww)) k := by
    rw [pay2_apply, pay4_apply, bit_toInt]
    rfl
  exact congrArg₂ (· * ·) hd hd

end Cert.KernelIdeal.Pay

end
-- ==== Proof.KerTail.lean ====
/-
  The host lines after the region: from the region's exit contents they sum the per-tile counts over the tiles,
  sum the per-tile squared errors, and apply the closing arithmetic with the prior table that the one host line
  before the region wrote.
-/
import proofs.«123292_j48180943127204_1_alg».proof.Proof.Gen.KernelIdeal.Frame
import proofs.«123292_j48180943127204_1_alg».proof.Proof.Spec
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The scalar result's buffer is none of the pipeline's arrays. -/
theorem mem_rest_v14 : main_v14 ∈ Pipeline.restRefs sig (cfgs 0).spec :=
  Pipeline.mem_restRefs_of main_v14 rfl (fun w => by fin_cases w <;> decide)

/-- The host lines after the region, from any buffer contents: the closing arithmetic of the prior table's buffer,
    the per-tile counts' buffer summed over tiles and the per-tile errors' buffer summed over tiles. -/
theorem tail_after (W : Valuation τ sig (Elt Ideal)) :
    after hostOps1 W (Proc.devRef .tc main_v14)
      = Spec.loss (W (Proc.devRef .tc main_cst))
          (Host.reduceAdd (F := Ideal) (φ := .f32) (u := S_) (W (Proc.devRef .tc main_v0_1))
            (constant (F := Ideal) S_ .f32 0x00000000#32) reducesTo_S32x1x19_S19_d0_1 h_S_)
          (Host.reduceAdd (F := Ideal) (φ := .f32) (u := S_) (W (Proc.devRef .tc main_v0_2))
            (constant (F := Ideal) S_ .f32 0x00000000#32) reducesTo_S32x1x1_S_d0_1_2 h_S_) := by
  after_results
  generalize Host.reduceAdd (F := Ideal) (φ := .f32) (u := S_) (W (Proc.devRef .tc main_v0_1)) (constant (F := Ideal) S_ .f32 0x00000000#32) reducesTo_S32x1x19_S19_d0_1 h_S_ = sz
  generalize Host.reduceAdd (F := Ideal) (φ := .f32) (u := S_) (W (Proc.devRef .tc main_v0_2)) (constant (F := Ideal) S_ .f32 0x00000000#32) reducesTo_S32x1x1_S_d0_1_2 h_S_ = se
  generalize W (Proc.devRef .tc main_cst) = pr
  rfl

/-- After the region the prior table's buffer still holds the table the host line before the region wrote. -/
theorem prior_value (c : Dev nD) (A : (w : Fin cfg0.W) → Buf (Elt Ideal) (((cfgs 0).spec w).arr.view.loc (c.tc : Thread nD τ))) :
    Pipeline.withArrays (cfgs 0).spec c (V0 m c) A (Proc.devRef .tc main_cst)
      = (fun i => FloatOps.ofBits (F := Ideal) .f32 (lit0 (S19.rowMajor i)) : FVec Ideal S19 .f32) := by
  rw [Pipeline.withArrays_of_ne (cfgs 0).spec c (V0 m c) A main_cst (fun w => by fin_cases w <;> decide)]
  dsimp only [V0]
  simp only [hostOps0, List.flatten_cons, List.flatten_nil, List.append_nil]
  after_results
  rfl

/-- The scalar result after the run: the closing arithmetic of the prior table, the per-tile counts summed over
    the tiles and the per-tile squared errors summed over the tiles. -/
theorem tail_value (c : Dev nD) :
    Pipeline.afterTail₀ cfgs (dats m) 0 (V0 m) [hostOps1] c main_v14
      = Spec.loss (fun i => FloatOps.ofBits .f32 (lit0 (S19.rowMajor i)))
          (Host.reduceAdd (F := Ideal) (φ := .f32) (u := S_) ((dats m 0 c).arrAt 4 cfg0.N)
            (constant (F := Ideal) S_ .f32 0x00000000#32) reducesTo_S32x1x19_S19_d0_1 h_S_)
          (Host.reduceAdd (F := Ideal) (φ := .f32) (u := S_) ((dats m 0 c).arrAt 5 cfg0.N)
            (constant (F := Ideal) S_ .f32 0x00000000#32) reducesTo_S32x1x1_S_d0_1_2 h_S_) := by
  unfold Pipeline.afterTail₀
  simp only [List.flatten_cons, List.flatten_nil, List.append_nil]
  have e4 : Pipeline.withArrays (cfgs 0).spec c (V0 m c) (fun w => (dats m 0 c).arrAt w (cfgs 0).N) (Proc.devRef .tc main_v0_1)
      = (dats m 0 c).arrAt 4 cfg0.N :=
    Pipeline.withArrays_arr (cfgs 0).spec launch0.win.arr_inj c (V0 m c) (fun w => (dats m 0 c).arrAt w (cfgs 0).N) 4
  have e5 : Pipeline.withArrays (cfgs 0).spec c (V0 m c) (fun w => (dats m 0 c).arrAt w (cfgs 0).N) (Proc.devRef .tc main_v0_2)
      = (dats m 0 c).arrAt 5 cfg0.N :=
    Pipeline.withArrays_arr (cfgs 0).spec launch0.win.arr_inj c (V0 m c) (fun w => (dats m 0 c).arrAt w (cfgs 0).N) 5
  rw [tail_after, prior_value, e4, e5]

end Cert.KernelIdeal.Tail

end
-- ==== Proof.KerValue.lean ====
/-
  The kernel program's results at the ideal values.  Each grid point t writes back three blocks: rows
  16 t … 16 t + 15 of the renormalised weighted softmax, row t of the per-tile counts, entry t of the
  per-tile squared errors.  The blocks tile their arrays, so after the run the arrays are the whole-array
  functions; the host lines after the region then sum the tiles and apply the closing arithmetic.

  The input blocks are restrictions of the arguments: row hh of the block of scores (and of labels) at point t
  is the argument's row 16 t + hh, and the block of weights is the whole weight vector.  A pixel's column of
  scores is therefore the same read from the block or from the array, and with it everything computed from
  the column: the renormalised weighted softmax, the confident-pixel indicator and the squared error.
-/
import proofs.«123292_j48180943127204_1_alg».proof.Proof.Gen.KernelIdeal.Frame
import proofs.«123292_j48180943127204_1_alg».proof.Proof.Spec
import proofs.«123292_j48180943127204_1_alg».proof.Proof.KerPay
import proofs.«123292_j48180943127204_1_alg».proof.Proof.KerTail
import Idealize.ShloMosaic.Lib.Pipeline.Value
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Zero offsets, however spelt -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The grid point as a tile number. -/
def tile (t : Fin cfg0.N) : Fin 32 := ⟨t.val, Nat.lt_of_lt_of_eq t.isLt N_0⟩

/-- The printed index maps, decided once over the grid. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 1) = 0
    ∧ win0_2.index t (0 : Fin 3) = 0 ∧ win0_2.index t (1 : Fin 3) = t.val ∧ win0_2.index t (2 : Fin 3) = 0
    ∧ win0_3.index t (0 : Fin 4) = 0 ∧ win0_3.index t (1 : Fin 4) = 0 ∧ win0_3.index t (2 : Fin 4) = t.val ∧ win0_3.index t (3 : Fin 4) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

theorem tile_val (t : Fin cfg0.N) : (tile t).val = t.val := rfl

/-! ## The specification on a tile of rows

Stated over variables of the literal block and array types: a block of 16 rows whose row hh is the array's
row 16 t + hh carries the same pixel columns, hence the same renormalised weighted softmax. -/

theorem colOf_tile (x0 : Vec Ideal S2x19x16x1024 .f32) (X : Vec Ideal S2x19x512x1024 .f32) (T : Fin 32)
    (hx : ∀ (b : Fin 2) (k : Fin 19) (hh : Fin 16) (ww : Fin 1024), x0 (ix4 b k hh ww) = X (ix4 b k (Spec.tileRow T hh) ww))
    (b : Fin 2) (hh : Fin 16) (ww : Fin 1024) :
    Spec.colOf x0 b hh ww = Spec.colOf X b (Spec.tileRow T hh) ww :=
  funext fun k => hx b k hh ww

theorem WP_tile (x0 : Vec Ideal S2x19x16x1024 .f32) (X : Vec Ideal S2x19x512x1024 .f32) (w0 W : Vec Ideal S19 .f32) (T : Fin 32)
    (hx : ∀ (b : Fin 2) (k : Fin 19) (hh : Fin 16) (ww : Fin 1024), x0 (ix4 b k hh ww) = X (ix4 b k (Spec.tileRow T hh) ww))
    (hw : w0 = W) (b : Fin 2) (k : Fin 19) (hh : Fin 16) (ww : Fin 1024) :
    Spec.WP x0 w0 (ix4 b k hh ww) = Spec.WP X W (ix4 b k (Spec.tileRow T hh) ww) := by
  subst hw
  show Spec.wp (Spec.colOf x0 b hh ww) (Spec.wOf w0) k = Spec.wp (Spec.colOf X b (Spec.tileRow T hh) ww) (Spec.wOf w0) k
  rw [colOf_tile x0 X T hx]

/-! ## The input blocks read off the arguments -/

/-- The first input's block at point t holds rows 16 t … 16 t + 15 of the score array. -/
theorem xblk_apply (c : Dev nD) (t : Fin cfg0.N) (b : Fin 2) (k : Fin 19) (hh : Fin 16) (ww : Fin 1024) :
    (iblk m c 0 t : Vec Ideal S2x19x16x1024 .f32) (ix4 b k hh ww)
      = (m ((c : Thread nD τ).loc main_arg0) : S2x19x512x1024.Idx → Elt Ideal .f32) (ix4 b k (Spec.tileRow (tile t) hh) ww) := by
  obtain ⟨e0, e1, e2, e3, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 2 + 1 * b.val = b.val; rw [e0]; omega
  | ⟨1, _⟩ => show win0_0.index t (1 : Fin 4) * 19 + 1 * k.val = k.val; rw [e1]; omega
  | ⟨2, _⟩ => show win0_0.index t (2 : Fin 4) * 16 + 1 * hh.val = 16 * t.val + hh.val; rw [e2]; omega
  | ⟨3, _⟩ => show win0_0.index t (3 : Fin 4) * 1024 + 1 * ww.val = ww.val; rw [e3]; omega

/-- The second input's block is the whole weight vector at every point. -/
theorem wblk_eq (c : Dev nD) (t : Fin cfg0.N) :
    (iblk m c 1 t : Vec Ideal S19 .f32) = (m ((c : Thread nD τ).loc main_arg1) : S19.Idx → Elt Ideal .f32) := by
  obtain ⟨-, -, -, -, e0, -⟩ := idx_facts t
  funext j
  unfold iblk
  rw [View.read_apply]
  show V m c main_arg1 _ = m (c.tc.loc main_arg1) _
  rw [V_main_arg1]
  congr 1
  funext a
  apply Fin.ext
  match a with
  | ⟨0, _⟩ => show win0_1.index t (0 : Fin 1) * 19 + 1 * (j 0).val = (j 0).val; rw [e0]; omega

/-- The third input's block at point t holds rows 16 t … 16 t + 15 of the label array. -/
theorem lblk_apply (c : Dev nD) (t : Fin cfg0.N) (b : Fin 2) (hh : Fin 16) (ww : Fin 1024) :
    (iblk m c 2 t : Vec Ideal S2x16x1024 .i32) (ix3 b hh ww)
      = (m ((c : Thread nD τ).loc main_arg2) : S2x512x1024.Idx → Elt Ideal .i32) (ix3 b (Spec.tileRow (tile t) hh) ww) := by
  obtain ⟨-, -, -, -, -, e0, e1, e2, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 3) * 2 + 1 * b.val = b.val; rw [e0]; omega
  | ⟨1, _⟩ => show win0_2.index t (1 : Fin 3) * 16 + 1 * hh.val = 16 * t.val + hh.val; rw [e1]; omega
  | ⟨2, _⟩ => show win0_2.index t (2 : Fin 3) * 1024 + 1 * ww.val = ww.val; rw [e2]; omega

/-! ## What each point writes back -/

/-- Point t writes back block t of the renormalised weighted softmax of the arguments. -/
theorem flushed3_eq (c : Dev nD) (t : Fin cfg0.N) :
    (dats m 0 c).flushed 3 t = ((cfg0.win 3).blk t).view.read (Elt Ideal)
      (Spec.WP (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz4]
  simp only [View.ld_unit_zero (S := S2x19x16x1024) hz4, View.ld_unit_zero (S := S19) hz1]
  rw [Pay.pay2_eq]
  funext (j : S2x19x16x1024.Idx)
  obtain ⟨b, k, hh, ww, rfl⟩ : ∃ (b : Fin 2) (k : Fin 19) (hh : Fin 16) (ww : Fin 1024), j = ix4 b k hh ww :=
    ⟨j 0, j 1, j 2, j 3, eq_ix4 j⟩
  refine (WP_tile (iblk m c 0 t) (m ((c : Thread nD τ).loc main_arg0)) (iblk m c 1 t) (m ((c : Thread nD τ).loc main_arg1)) (tile t)
    (xblk_apply m c t) (wblk_eq m c t) b k hh ww).trans ?_
  rw [View.read_apply]
  show Spec.WP (m ((c : Thread nD τ).loc main_arg0)) (m ((c : Thread nD τ).loc main_arg1)) _
    = Spec.WP (m ((c : Thread nD τ).loc main_arg0)) (m ((c : Thread nD τ).loc main_arg1)) (((cfg0.win 3).blk t).view.emb (ix4 b k hh ww))
  obtain ⟨-, -, -, -, -, -, -, -, e0, e1, e2, e3, -⟩ := idx_facts t
  congr 1
  funext a
  apply Fin.ext
  match a with
  | ⟨0, _⟩ => show b.val = win0_3.index t (0 : Fin 4) * 2 + 1 * b.val; rw [e0]; omega
  | ⟨1, _⟩ => show k.val = win0_3.index t (1 : Fin 4) * 19 + 1 * k.val; rw [e1]; omega
  | ⟨2, _⟩ => show 16 * t.val + hh.val = win0_3.index t (2 : Fin 4) * 16 + 1 * hh.val; rw [e2]; omega
  | ⟨3, _⟩ => show ww.val = win0_3.index t (3 : Fin 4) * 1024 + 1 * ww.val; rw [e3]; omega

/-- An index of the first output lies in point t's block iff each coordinate is in the block's range on its axis. -/
theorem mem_blk3 (t : Fin cfg0.N) (i : S2x19x512x1024.Idx) :
    i ∈ ((cfg0.win 3).blk t).view.set ↔ ∀ a : Fin 4, win0_3.index t a * S2x19x16x1024.size a ≤ (i a).val
      ∧ (i a).val < win0_3.index t a * S2x19x16x1024.size a + S2x19x16x1024.size a := by
  show i ∈ ((View.whole main_v0_0).slice (win0_3.rect t)).set ↔ _
  rw [View.set_slice_whole, Rect.mem_set_unit]
  exact Iff.rfl

/-- The blocks of 16 rows tile the array: row r lies in the block of point r / 16. So after the run the first
    output is the renormalised weighted softmax of the arguments. -/
theorem final3 (c : Dev nD) : (dats m 0 c).arrAt 3 cfg0.N
    = Spec.WP (m ((c : Thread nD τ).loc main_arg0)) (m ((c : Thread nD τ).loc main_arg1)) :=
  (dats m 0 c).arrAt_eq_of_cover 3 _ (fun t _ => flushed3_eq m c t) fun i => by
    have h0 : (i 0).val < 2 := (i 0).isLt
    have h1 : (i 1).val < 19 := (i 1).isLt
    have h2 : (i 2).val < 512 := (i 2).isLt
    have h3 : (i 3).val < 1024 := (i 3).isLt
    have hN : cfg0.N = 32 := N_0
    have ht : (i 2).val / 16 < cfg0.N := by rw [hN]; omega
    generalize hT : (⟨(i 2).val / 16, ht⟩ : Fin cfg0.N) = T
    have hTv : T.val = (i 2).val / 16 := by rw [← hT]
    refine ⟨T, flush0_3 T, ?_⟩
    rw [mem_blk3]
    obtain ⟨-, -, -, -, -, -, -, -, e0, e1, e2, e3, -⟩ := idx_facts T
    intro a
    match a with
    | ⟨0, _⟩ => show win0_3.index T (0 : Fin 4) * 2 ≤ (i 0).val ∧ (i 0).val < win0_3.index T (0 : Fin 4) * 2 + 2; rw [e0]; omega
    | ⟨1, _⟩ => show win0_3.index T (1 : Fin 4) * 19 ≤ (i 1).val ∧ (i 1).val < win0_3.index T (1 : Fin 4) * 19 + 19; rw [e1]; omega
    | ⟨2, _⟩ => show win0_3.index T (2 : Fin 4) * 16 ≤ (i 2).val ∧ (i 2).val < win0_3.index T (2 : Fin 4) * 16 + 16; rw [e2]; omega
    | ⟨3, _⟩ => show win0_3.index T (3 : Fin 4) * 1024 ≤ (i 3).val ∧ (i 3).val < win0_3.index T (3 : Fin 4) * 1024 + 1024; rw [e3]; omega

/-! ## The per-tile sums on a tile of rows -/

theorem pcount_tile (x0 : Vec Ideal S2x19x16x1024 .f32) (X : Vec Ideal S2x19x512x1024 .f32) (w0 W : Vec Ideal S19 .f32) (T : Fin 32)
    (hx : ∀ (b : Fin 2) (k : Fin 19) (hh : Fin 16) (ww : Fin 1024), x0 (ix4 b k hh ww) = X (ix4 b k (Spec.tileRow T hh) ww))
    (hw : w0 = W) (k : Fin 19) :
    (∑ hh : Fin 16, ∑ ww : Fin 1024, ∑ b : Fin 2, Spec.above (Spec.WP x0 w0 (ix4 b k hh ww))) = Spec.pcount X W T k :=
  Finset.sum_congr rfl fun hh _ => Finset.sum_congr rfl fun ww _ => Finset.sum_congr rfl fun b _ =>
    congrArg Spec.above (WP_tile x0 X w0 W T hx hw b k hh ww)

theorem psse_tile (x0 : Vec Ideal S2x19x16x1024 .f32) (X : Vec Ideal S2x19x512x1024 .f32) (w0 W : Vec Ideal S19 .f32)
    (l0 : Vec Ideal S2x16x1024 .i32) (L : Vec Ideal S2x512x1024 .i32) (T : Fin 32)
    (hx : ∀ (b : Fin 2) (k : Fin 19) (hh : Fin 16) (ww : Fin 1024), x0 (ix4 b k hh ww) = X (ix4 b k (Spec.tileRow T hh) ww))
    (hw : w0 = W)
    (hl : ∀ (b : Fin 2) (hh : Fin 16) (ww : Fin 1024), l0 (ix3 b hh ww) = L (ix3 b (Spec.tileRow T hh) ww)) :
    (∑ hh : Fin 16, ∑ ww : Fin 1024, ∑ b : Fin 2, Spec.sqe (Spec.colOf x0 b hh ww) (Spec.wOf w0) (l0 (ix3 b hh ww)))
      = Spec.psse X W L T := by
  subst hw
  refine Finset.sum_congr rfl fun hh _ => Finset.sum_congr rfl fun ww _ => Finset.sum_congr rfl fun b _ => ?_
  rw [colOf_tile x0 X T hx, hl]

/-- Point t writes back row t of the per-tile counts. -/
theorem flushed4_eq (c : Dev nD) (t : Fin cfg0.N) :
    (dats m 0 c).flushed 4 t = ((cfg0.win 4).blk t).view.read (Elt Ideal)
      (fun i : S32x1x19.Idx => Spec.pcount (m ((c : Thread nD τ).loc main_arg0)) (m ((c : Thread nD τ).loc main_arg1)) (i 0) (i 2)) := by
  show (cfg0.win 4).cut (grid0.coords t) ((dats m 0 c).after 4 t) = _
  rw [after0_4]
  unfold out0_4
  rw [View.canon_unit_zero hz3]
  simp only [View.ld_unit_zero (S := S2x19x16x1024) hz4, View.ld_unit_zero (S := S19) hz1]
  funext (j : S1x1x19.Idx)
  obtain ⟨u, v, k, rfl⟩ : ∃ (u : Fin 1) (v : Fin 1) (k : Fin 19), j = ix3 u v k := ⟨j 0, j 1, j 2, eq_ix3 j⟩
  obtain rfl : u = 0 := Subsingleton.elim _ _
  obtain rfl : v = 0 := Subsingleton.elim _ _
  refine (Pay.pay3_apply (iblk m c 0 t) (iblk m c 1 t) k).trans ?_
  refine (pcount_tile (iblk m c 0 t) (m ((c : Thread nD τ).loc main_arg0)) (iblk m c 1 t) (m ((c : Thread nD τ).loc main_arg1)) (tile t)
    (xblk_apply m c t) (wblk_eq m c t) k).trans ?_
  rw [View.read_apply]
  obtain ⟨-, -, -, -, -, -, -, -, -, -, -, -, e0, e1, e2, -⟩ := idx_facts t
  show Spec.pcount (m ((c : Thread nD τ).loc main_arg0)) (m ((c : Thread nD τ).loc main_arg1)) (tile t) k
    = Spec.pcount (m ((c : Thread nD τ).loc main_arg0)) (m ((c : Thread nD τ).loc main_arg1))
        (((cfg0.win 4).blk t).view.emb (ix3 (0 : Fin 1) (0 : Fin 1) k) 0) (((cfg0.win 4).blk t).view.emb (ix3 (0 : Fin 1) (0 : Fin 1) k) 2)
  congr 1
  · apply Fin.ext; show t.val = win0_4.index t (0 : Fin 3) * 1 + 1 * 0; rw [e0]; omega
  · apply Fin.ext; show k.val = win0_4.index t (2 : Fin 3) * 19 + 1 * k.val; rw [e2]; omega

/-- Point t writes back entry t of the per-tile squared errors. -/
theorem flushed5_eq (c : Dev nD) (t : Fin cfg0.N) :
    (dats m 0 c).flushed 5 t = ((cfg0.win 5).blk t).view.read (Elt Ideal)
      (fun i : S32x1x1.Idx => Spec.psse (m ((c : Thread nD τ).loc main_arg0)) (m ((c : Thread nD τ).loc main_arg1)) (m ((c : Thread nD τ).loc main_arg2)) (i 0)) := by
  show (cfg0.win 5).cut (grid0.coords t) ((dats m 0 c).after 5 t) = _
  rw [after0_5]
  unfold out0_5
  rw [View.canon_unit_zero hz3]
  simp only [View.ld_unit_zero (S := S2x19x16x1024) hz4, View.ld_unit_zero (S := S19) hz1, View.ld_unit_zero (S := S2x16x1024) hz3]
  funext (j : S1x1x1.Idx)
  obtain ⟨u, v, k, rfl⟩ : ∃ (u : Fin 1) (v : Fin 1) (k : Fin 1), j = ix3 u v k := ⟨j 0, j 1, j 2, eq_ix3 j⟩
  obtain rfl : u = 0 := Subsingleton.elim _ _
  obtain rfl : v = 0 := Subsingleton.elim _ _
  obtain rfl : k = 0 := Subsingleton.elim _ _
  refine (Pay.pay1_apply (iblk m c 0 t) (iblk m c 1 t) (iblk m c 2 t)).trans ?_
  refine (psse_tile (iblk m c 0 t) (m ((c : Thread nD τ).loc main_arg0)) (iblk m c 1 t) (m ((c : Thread nD τ).loc main_arg1))
    (iblk m c 2 t) (m ((c : Thread nD τ).loc main_arg2)) (tile t)
    (xblk_apply m c t) (wblk_eq m c t) (lblk_apply m c t)).trans ?_
  rw [View.read_apply]
  obtain ⟨-, -, -, -, -, -, -, -, -, -, -, -, -, -, -, e0, e1, e2⟩ := idx_facts t
  show Spec.psse (m ((c : Thread nD τ).loc main_arg0)) (m ((c : Thread nD τ).loc main_arg1)) (m ((c : Thread nD τ).loc main_arg2)) (tile t)
    = Spec.psse (m ((c : Thread nD τ).loc main_arg0)) (m ((c : Thread nD τ).loc main_arg1)) (m ((c : Thread nD τ).loc main_arg2))
        (((cfg0.win 5).blk t).view.emb (ix3 (0 : Fin 1) (0 : Fin 1) (0 : Fin 1)) 0)
  congr 1
  apply Fin.ext; show t.val = win0_5.index t (0 : Fin 3) * 1 + 1 * 0; rw [e0]; omega

/-- An index of the second output lies in point t's block iff each coordinate is in the block's range on its axis. -/
theorem mem_blk4 (t : Fin cfg0.N) (i : S32x1x19.Idx) :
    i ∈ ((cfg0.win 4).blk t).view.set ↔ ∀ a : Fin 3, win0_4.index t a * S1x1x19.size a ≤ (i a).val
      ∧ (i a).val < win0_4.index t a * S1x1x19.size a + S1x1x19.size a := by
  show i ∈ ((View.whole main_v0_1).slice (win0_4.rect t)).set ↔ _
  rw [View.set_slice_whole, Rect.mem_set_unit]
  exact Iff.rfl

/-- Row t of the count array is point t's block, so after the run the array holds every tile's counts. -/
theorem final4 (c : Dev nD) : (dats m 0 c).arrAt 4 cfg0.N
    = fun i : S32x1x19.Idx => Spec.pcount (m ((c : Thread nD τ).loc main_arg0)) (m ((c : Thread nD τ).loc main_arg1)) (i 0) (i 2) :=
  (dats m 0 c).arrAt_eq_of_cover 4 _ (fun t _ => flushed4_eq m c t) fun i => by
    have h0 : (i 0).val < 32 := (i 0).isLt
    have h1 : (i 1).val < 1 := (i 1).isLt
    have h2 : (i 2).val < 19 := (i 2).isLt
    have hN : cfg0.N = 32 := N_0
    have ht : (i 0).val < cfg0.N := by rw [hN]; exact h0
    generalize hT : (⟨(i 0).val, ht⟩ : Fin cfg0.N) = T
    have hTv : T.val = (i 0).val := by rw [← hT]
    refine ⟨T, flush0_4 T, ?_⟩
    rw [mem_blk4]
    obtain ⟨-, -, -, -, -, -, -, -, -, -, -, -, e0, e1, e2, -⟩ := idx_facts T
    intro a
    match a with
    | ⟨0, _⟩ => show win0_4.index T (0 : Fin 3) * 1 ≤ (i 0).val ∧ (i 0).val < win0_4.index T (0 : Fin 3) * 1 + 1; rw [e0]; omega
    | ⟨1, _⟩ => show win0_4.index T (1 : Fin 3) * 1 ≤ (i 1).val ∧ (i 1).val < win0_4.index T (1 : Fin 3) * 1 + 1; rw [e1]; omega
    | ⟨2, _⟩ => show win0_4.index T (2 : Fin 3) * 19 ≤ (i 2).val ∧ (i 2).val < win0_4.index T (2 : Fin 3) * 19 + 19; rw [e2]; omega

/-- An index of the third output lies in point t's block iff each coordinate is in the block's range on its axis. -/
theorem mem_blk5 (t : Fin cfg0.N) (i : S32x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v0_2).slice (win0_5.rect t)).set ↔ _
  rw [View.set_slice_whole, Rect.mem_set_unit]
  exact Iff.rfl

/-- Entry t of the squared-error array is point t's block, so after the run the array holds every tile's share. -/
theorem final5 (c : Dev nD) : (dats m 0 c).arrAt 5 cfg0.N
    = fun i : S32x1x1.Idx => Spec.psse (m ((c : Thread nD τ).loc main_arg0)) (m ((c : Thread nD τ).loc main_arg1)) (m ((c : Thread nD τ).loc main_arg2)) (i 0) :=
  (dats m 0 c).arrAt_eq_of_cover 5 _ (fun t _ => flushed5_eq m c t) fun i => by
    have h0 : (i 0).val < 32 := (i 0).isLt
    have h1 : (i 1).val < 1 := (i 1).isLt
    have h2 : (i 2).val < 1 := (i 2).isLt
    have hN : cfg0.N = 32 := N_0
    have ht : (i 0).val < cfg0.N := by rw [hN]; exact h0
    generalize hT : (⟨(i 0).val, ht⟩ : Fin cfg0.N) = T
    have hTv : T.val = (i 0).val := by rw [← hT]
    refine ⟨T, flush0_5 T, ?_⟩
    rw [mem_blk5]
    obtain ⟨-, -, -, -, -, -, -, -, -, -, -, -, -, -, -, e0, e1, e2⟩ := idx_facts T
    intro a
    match a with
    | ⟨0, _⟩ => show win0_5.index T (0 : Fin 3) * 1 ≤ (i 0).val ∧ (i 0).val < win0_5.index T (0 : Fin 3) * 1 + 1; rw [e0]; omega
    | ⟨1, _⟩ => show win0_5.index T (1 : Fin 3) * 1 ≤ (i 1).val ∧ (i 1).val < win0_5.index T (1 : Fin 3) * 1 + 1; rw [e1]; omega
    | ⟨2, _⟩ => show win0_5.index T (2 : Fin 3) * 1 ≤ (i 2).val ∧ (i 2).val < win0_5.index T (2 : Fin 3) * 1 + 1; rw [e2]; omega

/-! ## The run, read -/

/-- Every weakly fair execution of the kernel program terminates; the array result is the renormalised weighted
    softmax of the arguments, the scalar result the closing arithmetic applied to the prior table, the per-tile
    counts summed over the tiles, and the per-tile squared errors summed over the tiles; the arguments are unchanged. -/
theorem ker_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = Spec.loss (fun i => FloatOps.ofBits .f32 (lit0 (S19.rowMajor i)))
              (Host.reduceAdd (F := Ideal) (φ := .f32) (u := S_)
                (fun i : S32x1x19.Idx => Spec.pcount (m ((c.tc : Thread nD τ).loc main_arg0)) (m ((c.tc : Thread nD τ).loc main_arg1)) (i 0) (i 2))
                (constant (F := Ideal) S_ .f32 0x00000000#32) reducesTo_S32x1x19_S19_d0_1 h_S_)
              (Host.reduceAdd (F := Ideal) (φ := .f32) (u := S_)
                (fun i : S32x1x1.Idx => Spec.psse (m ((c.tc : Thread nD τ).loc main_arg0)) (m ((c.tc : Thread nD τ).loc main_arg1)) (m ((c.tc : Thread nD τ).loc main_arg2)) (i 0))
                (constant (F := Ideal) S_ .f32 0x00000000#32) reducesTo_S32x1x1_S_d0_1_2 h_S_)
      ∧ r.2.mem ((c.tc : Thread nD τ).loc main_v0_0)
          = Spec.WP (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (run_main m ρ)
  obtain ⟨harr, hrest⟩ := h c
  refine ⟨?_, (harr 3).trans (final3 m c),
    (harr 0).trans (((dats m 0 c).arrAt_in 0 rfl _).trans ((A_eq m c 0).trans (V_main_arg0 m c))),
    (harr 1).trans (((dats m 0 c).arrAt_in 1 rfl _).trans ((A_eq m c 1).trans (V_main_arg1 m c))),
    (harr 2).trans (((dats m 0 c).arrAt_in 2 rfl _).trans ((A_eq m c 2).trans (V_main_arg2 m c)))⟩
  refine (hrest main_v14 Tail.mem_rest_v14).trans ?_
  rw [Tail.tail_value m c, final4 m c, final5 m c]

end Cert.KernelIdeal.Val

end
-- ==== Proof.lean ====
/-
  The certificate: a Pallas kernel that, tile by tile over the image rows, renormalises a per-class weighted
  softmax, counts the confident pixels per class and sums the squared error to the one-hot labels, against a
  plain jnp reference that does the same over the whole arrays.

  Both programs compute, at the ideal values, the functions of Spec.lean: the array result is the renormalised
  weighted softmax pixel by pixel; the scalar result is one closing arithmetic applied to the prior table, the
  per-class counts and the summed squared error.  The kernel produces the counts and the error tile by tile
  and its host lines sum the tiles; summing tiles, rows, lanes and batch in the kernel's order gives the sums
  over all pixels because addition of extended reals is commutative and associative (Sums.lean).  The
  reference's values are read off its straight-line run (RefRun.lean, RefValue.lean), the kernel's off its
  frame run block by block (KerPay.lean, KerValue.lean).  The three frames are the runs with the results
  dropped; nothing was rewritten by the ideal pass, so the kernel's idealization claim is trivial.
-/
import proofs.«123292_j48180943127204_1_alg».proof.Defs
import proofs.«123292_j48180943127204_1_alg».proof.Proof.Gen.Kernel
import proofs.«123292_j48180943127204_1_alg».proof.Proof.Gen.Kernel.Frame
import proofs.«123292_j48180943127204_1_alg».proof.Proof.Gen.KernelIdeal
import proofs.«123292_j48180943127204_1_alg».proof.Proof.Gen.KernelIdeal.Frame
import proofs.«123292_j48180943127204_1_alg».proof.Proof.Gen.ReferenceIdeal
import proofs.«123292_j48180943127204_1_alg».proof.Proof.Gen.Pre_finite_inputs
import proofs.«123292_j48180943127204_1_alg».proof.Proof.Spec
import proofs.«123292_j48180943127204_1_alg».proof.Proof.Sums
import proofs.«123292_j48180943127204_1_alg».proof.Proof.RefRun
import proofs.«123292_j48180943127204_1_alg».proof.Proof.RefValue
import proofs.«123292_j48180943127204_1_alg».proof.Proof.KerValue

noncomputable section

namespace Cert.Proof

open Idealize.ShloMosaic Idealize.SL.Sem

/-- The two programs carry the same prior table, word for word. -/
theorem prior_words : ∀ i : Fin 19, Cert.KernelIdeal.lit0 i = Cert.ReferenceIdeal.lit0 i := by decide

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Run.run (F := Ideal) m ρ)

/-- Both idealized programs end with the same two results: the specification's functions of the arguments. -/
theorem algebraic : Cert.algebraic_KernelIdeal_ReferenceIdeal := by
  intro m ρ m' ρ' _ hagree
  refine ⟨fun c => Spec.loss (fun i => FloatOps.ofBits .f32 (Cert.KernelIdeal.lit0 (Cert.KernelIdeal.S19.rowMajor i)))
      (fun j => Spec.counts (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (j 0))
      (fun _ => Spec.sse (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    fun c => Spec.WP (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Val.ker_run m ρ)
    obtain ⟨h1, h2, h3, h4, h5⟩ := h c
    refine ⟨?_, h2, h3, h4, h5⟩
    rw [h1, Cert.Sums.reduce_pcount, Cert.Sums.reduce_psse]
  · refine (θ_run Cert.ReferenceIdeal.defs _ _).mono (fun _ h c => ?_) (Cert.ReferenceIdeal.Run.run (F := Ideal) m' ρ')
    obtain ⟨h1, h2, h3, h4, h5⟩ := h c
    refine ⟨?_, ?_, h3, h4, h5⟩
    · rw [h1, (hagree c).1, (hagree c).2.1, (hagree c).2.2]
      unfold Cert.ReferenceIdeal.Term.lossT
      rw [Cert.ReferenceIdeal.RefValue.lossOf_eq, Cert.ReferenceIdeal.RefValue.sizeT_eq, Cert.ReferenceIdeal.RefValue.sseT_eq]
      refine congrArg (fun p => Spec.loss p _ _) (funext fun i => ?_)
      exact congrArg (FloatOps.ofBits .f32) (prior_words _).symm
    · rw [h2, (hagree c).1, (hagree c).2.1]
      exact Cert.ReferenceIdeal.RefValue.wpT_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
